-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S6400000 : Shape := ⟨1, ![6400000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_arg3 : IVec S6400000 32) (main_v15 : IVec S_ 1) (main_c_5 : IVec S_ 32) : IVec S_ 1 :=
  let main_v16 : IVec S6400000 32 := broadcastInDim S6400000 ![] bcast_S_S6400000 main_c_5
  let main_v17 : IVec S6400000 1 := cmpi .sge main_arg3 main_v16
  let main_c_6 : IVec S_ 32 := constantI S_ 32 100000#32
  let main_v18 : IVec S6400000 32 := broadcastInDim S6400000 ![] bcast_S_S6400000 main_c_6
  let main_v19 : IVec S6400000 1 := cmpi .slt main_arg3 main_v18
  let main_v20 : IVec S6400000 1 := andi main_v17 main_v19
  let main_c_7 : IVec S_ 1 := constantI S_ 1 1#1
  let main_v21 : IVec S_ 1 := (fun x v => Host.reduce IntOp.andi x v reducesTo_S6400000_S_d0 h_S_) main_v20 main_c_7
  let main_v22 : IVec S_ 1 := andi main_v15 main_v21
  main_v22

def fn {F : FTy → Type} [FloatOps F] (main_arg0 : FVec F S100000x2 .f32) (main_arg1 : FVec F S100000x2 .f32) (main_arg2 : IVec S6400000 32) (main_arg3 : IVec S6400000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_c_2 : IVec S_ 32 := constantI S_ 32 0#32
  let main_v9 : IVec S6400000 32 := broadcastInDim S6400000 ![] bcast_S_S6400000 main_c_2
  let main_v10 : IVec S6400000 1 := cmpi .sge main_arg2 main_v9
  let main_c_3 : IVec S_ 32 := constantI S_ 32 100000#32
  let main_v11 : IVec S6400000 32 := broadcastInDim S6400000 ![] bcast_S_S6400000 main_c_3
  let main_v12 : IVec S6400000 1 := cmpi .slt main_arg2 main_v11
  let main_v13 : IVec S6400000 1 := andi main_v10 main_v12
  let main_c_4 : IVec S_ 1 := constantI S_ 1 1#1
  let main_v14 : IVec S_ 1 := (fun x v => Host.reduce IntOp.andi x v reducesTo_S6400000_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x2 : Shape := ⟨2, ![100000, 2]⟩
abbrev S6400000 : Shape := ⟨1, ![6400000]⟩
abbrev S2x100000 : Shape := ⟨2, ![2, 100000]⟩
abbrev S12800000 : Shape := ⟨1, ![12800000]⟩
abbrev S_ : Shape := ⟨0, ![]⟩
abbrev S12800000x1 : Shape := ⟨2, ![12800000, 1]⟩
abbrev S1 : Shape := ⟨1, ![1]⟩
abbrev S1x1 : Shape := ⟨2, ![1, 1]⟩
abbrev S2x12800000 : Shape := ⟨2, ![2, 12800000]⟩
abbrev S2x6400000 : Shape := ⟨2, ![2, 6400000]⟩
abbrev S2x50000x128 : Shape := ⟨3, ![2, 50000, 128]⟩
abbrev S2x2000x128 : Shape := ⟨3, ![2, 2000, 128]⟩
abbrev S1x2000x128 : Shape := ⟨3, ![1, 2000, 128]⟩
abbrev S6400000x2 : Shape := ⟨2, ![6400000, 2]⟩
abbrev S6400000x1 : Shape := ⟨2, ![6400000, 1]⟩

abbrev nBuf : Space → Nat
  | .hbm => 44
  | .vmem => 6
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S6400000, .i32⟩
  | .hbm, ⟨3, _⟩ => ⟨S6400000, .i32⟩
  | .hbm, ⟨4, _⟩ => ⟨S2x100000, .f32⟩
  | .hbm, ⟨5, _⟩ => ⟨S12800000, .i32⟩
  | .hbm, ⟨6, _⟩ => ⟨S_, .i32⟩
  | .hbm, ⟨7, _⟩ => ⟨S12800000, .i32⟩
  | .hbm, ⟨8, _⟩ => ⟨S12800000, .i1⟩
  | .hbm, ⟨9, _⟩ => ⟨S_, .i32⟩
  | .hbm, ⟨10, _⟩ => ⟨S12800000, .i32⟩
  | .hbm, ⟨11, _⟩ => ⟨S12800000, .i32⟩
  | .hbm, ⟨12, _⟩ => ⟨S12800000, .i32⟩
  | .hbm, ⟨13, _⟩ => ⟨S12800000x1, .i32⟩
  | .hbm, ⟨14, _⟩ => ⟨S1, .i32⟩
  | .hbm, ⟨15, _⟩ => ⟨S_, .i32⟩
  | .hbm, ⟨16, _⟩ => ⟨S12800000x1, .i32⟩
  | .hbm, ⟨17, _⟩ => ⟨S12800000x1, .i1⟩
  | .hbm, ⟨18, _⟩ => ⟨S1x1, .i32⟩
  | .hbm, ⟨19, _⟩ => ⟨S12800000x1, .i32⟩
  | .hbm, ⟨20, _⟩ => ⟨S12800000x1, .i1⟩
  | .hbm, ⟨21, _⟩ => ⟨S12800000x1, .i1⟩
  | .hbm, ⟨22, _⟩ => ⟨S_, .i1⟩
  | .hbm, ⟨23, _⟩ => ⟨S12800000, .i1⟩
  | .hbm, ⟨24, _⟩ => ⟨S2x12800000, .f32⟩
  | .hbm, ⟨25, _⟩ => ⟨S2x12800000, .i1⟩
  | .hbm, ⟨26, _⟩ => ⟨S_, .f32⟩
  | .hbm, ⟨27, _⟩ => ⟨S2x12800000, .f32⟩
  | .hbm, ⟨28, _⟩ => ⟨S2x12800000, .f32⟩
  | .hbm, ⟨29, _⟩ => ⟨S2x6400000, .f32⟩
  | .hbm, ⟨30, _⟩ => ⟨S2x6400000, .f32⟩
  | .hbm, ⟨31, _⟩ => ⟨S2x50000x128, .f32⟩
  | .hbm, ⟨32, _⟩ => ⟨S2x50000x128, .f32⟩
  | .hbm, ⟨33, _⟩ => ⟨S2x50000x128, .f32⟩
  | .hbm, ⟨34, _⟩ => ⟨S2x6400000, .f32⟩
  | .hbm, ⟨35, _⟩ => ⟨S6400000x2, .f32⟩
  | .hbm, ⟨36, _⟩ => ⟨S_, .f32⟩
  | .hbm, ⟨37, _⟩ => ⟨S100000x2, .f32⟩
  | .hbm, ⟨38, _⟩ => ⟨S6400000x1, .i32⟩
  | .hbm, ⟨39, _⟩ => ⟨S100000x2, .f32⟩
  | .hbm, ⟨40, _⟩ => ⟨S_, .f32⟩
  | .hbm, ⟨41, _⟩ => ⟨S100000x2, .f32⟩
  | .hbm, ⟨42, _⟩ => ⟨S100000x2, .f32⟩
  | .hbm, ⟨43, _⟩ => ⟨S100000x2, .f32⟩
  | .local _ .vmem, ⟨0, _⟩ => ⟨S2x2000x128, .f32⟩
  | .local _ .vmem, ⟨1, _⟩ => ⟨S2x2000x128, .f32⟩
  | .local _ .vmem, ⟨2, _⟩ => ⟨S2x2000x128, .f32⟩
  | .local _ .vmem, ⟨3, _⟩ => ⟨S2x2000x128, .f32⟩
  | .local _ .vmem, ⟨4, _⟩ => ⟨S2x2000x128, .f32⟩
  | .local _ .vmem, ⟨5, _⟩ => ⟨S2x2000x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S100000x2_S2x100000_1_0 : S100000x2.Transposes [1, 0] S2x100000
  concatenates_S6400000_S6400000_S12800000_d0 : Shape.Concatenates [S6400000, S6400000] S12800000 0
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S12800000x1 : S_.BroadcastsInDim S12800000x1 (![] : Fin 0 → Fin S12800000x1.rank)
  bcast_S1_S1x1_1 : S1.BroadcastsInDim S1x1 (![1] : Fin 1 → Fin S1x1.rank)
  bcast_S1x1_S12800000x1_0_1 : S1x1.BroadcastsInDim S12800000x1 (![0, 1] : Fin 2 → Fin S12800000x1.rank)
  reducesTo_S12800000x1_S12800000_d1 : S12800000x1.ReducesTo [1] S12800000
  h_S_ : 0 < S_.numel
  bcast_S12800000_S2x12800000_1 : S12800000.BroadcastsInDim S2x12800000 (![1] : Fin 1 → Fin S2x12800000.rank)
  bcast_S_S2x12800000 : S_.BroadcastsInDim S2x12800000 (![] : Fin 0 → Fin S2x12800000.rank)
  slices_S2x12800000_S2x6400000_0_0 : S2x12800000.Slices ![0, 0] S2x6400000
  slices_S2x12800000_S2x6400000_0_6400000 : S2x12800000.Slices ![0, 6400000] S2x6400000
  shapeCasts_S2x6400000_S2x50000x128 : S2x6400000.ShapeCasts S2x50000x128
  inb_S2x2000x128_S2x2000x128_0_0_0 : ∀ a, (![0, 0, 0] : Fin 3 → Nat) a + S2x2000x128.size a ≤ S2x2000x128.size a
  h_S2x2000x128 : 0 < S2x2000x128.numel
  shapeCasts_S2x2000x128_S2x2000x128 : S2x2000x128.ShapeCasts S2x2000x128
  slices_S2x2000x128_o0_0_0_S1x2000x128 : S2x2000x128.Slices ![0, 0, 0] S1x2000x128
  slices_S2x2000x128_o1_0_0_S1x2000x128 : S2x2000x128.Slices ![1, 0, 0] S1x2000x128
  broadcasts_S1x2000x128_S2x2000x128 : S1x2000x128.Broadcasts S2x2000x128
  shapeCasts_S2x50000x128_S2x6400000 : S2x50000x128.ShapeCasts S2x6400000
  transposes_S2x6400000_S6400000x2_1_0 : S2x6400000.Transposes [1, 0] S6400000x2
  bcast_S_S100000x2 : S_.BroadcastsInDim S100000x2 (![] : Fin 0 → Fin S100000x2.rank)
  bcast_S6400000_S6400000x1_0 : S6400000.BroadcastsInDim S6400000x1 (![0] : Fin 1 → Fin S6400000x1.rank)
  gather_S2x100000_S12800000x1_S2x12800000_0_1_n_n_1_1_21_wf : GatherDims.WF S2x100000 S12800000x1 S2x12800000 [0] [1] [] [1] [] 1 ![2, 1]
  scatter_S100000x2_S6400000x1_S6400000x2_1_0_0_1_wf : ScatterDims.WF S100000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2000x128.size a ≤ S2x50000x128.size a
  hwx0_0 : ∀ i : grid0.Coords, EltTy.bits .f32 = 32 ∨ (Rect.block (s := S2x50000x128) S2x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2000x128.size a ≤ S2x50000x128.size a
  hwx0_1 : ∀ i : grid0.Coords, EltTy.bits .f32 = 32 ∨ (Rect.block (s := S2x50000x128) S2x2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2000x128.size a ≤ S2x50000x128.size a
  hwx0_2 : ∀ i : grid0.Coords, EltTy.bits .f32 = 32 ∨ (Rect.block (s := S2x50000x128) S2x2000x128.size (cc0_transform_2 i) (hinb0_2 i)).WholeWords (EltTy.packing .f32)

variable [Facts₀]

def gather_S2x100000_S12800000x1_S2x12800000_0_1_n_n_1_1_21 : GatherDims S2x100000 S12800000x1 S2x12800000 where
  offsetDims := [0]
  collapsedSliceDims := [1]
  operandBatchingDims := []
  startIndicesBatchingDims := []
  startIndexMap := [1]
  indexVectorDim := 1
  sliceSizes := ![2, 1]
  wf := gather_S2x100000_S12800000x1_S2x12800000_0_1_n_n_1_1_21_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

abbrev win0_0 : Pipeline.Window sig grid0 :=
  Pipeline.Window.ofSpec (Memref.whole main_v5) S2x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2x2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x2 : Shape := ⟨2, ![100000, 2]⟩
abbrev S6400000 : Shape := ⟨1, ![6400000]⟩
abbrev S_ : Shape := ⟨0, ![]⟩
abbrev S6400000x1 : Shape := ⟨2, ![6400000, 1]⟩
abbrev S6400000x2 : Shape := ⟨2, ![6400000, 2]⟩

abbrev nBuf : Space → Nat
  | .hbm => 70
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S6400000, .i32⟩
  | .hbm, ⟨3, _⟩ => ⟨S6400000, .i32⟩
  | .hbm, ⟨4, _⟩ => ⟨S_, .i32⟩
  | .hbm, ⟨5, _⟩ => ⟨S6400000, .i32⟩
  | .hbm, ⟨6, _⟩ => ⟨S6400000, .i1⟩
  | .hbm, ⟨7, _⟩ => ⟨S_, .i32⟩
  | .hbm, ⟨8, _⟩ => ⟨S6400000, .i32⟩
  | .hbm, ⟨9, _⟩ => ⟨S6400000, .i32⟩
  | .hbm, ⟨10, _⟩ => ⟨S6400000, .i32⟩
  | .hbm, ⟨11, _⟩ => ⟨S6400000x1, .i32⟩
  | .hbm, ⟨12, _⟩ => ⟨S6400000x2, .f32⟩
  | .hbm, ⟨13, _⟩ => ⟨S_, .i32⟩
  | .hbm, ⟨14, _⟩ => ⟨S6400000, .i32⟩
  | .hbm, ⟨15, _⟩ => ⟨S6400000, .i1⟩
  | .hbm, ⟨16, _⟩ => ⟨S_, .i32⟩
  | .hbm, ⟨17, _⟩ => ⟨S6400000, .i32⟩
  | .hbm, ⟨18, _⟩ => ⟨S6400000, .i32⟩
  | .hbm, ⟨19, _⟩ => ⟨S6400000, .i32⟩
  | .hbm, ⟨20, _⟩ => ⟨S6400000x1, .i32⟩
  | .hbm, ⟨21, _⟩ => ⟨S6400000x2, .f32⟩
  | .hbm, ⟨22, _⟩ => ⟨S6400000x2, .f32⟩
  | .hbm, ⟨23, _⟩ => ⟨S6400000x2, .f32⟩
  | .hbm, ⟨24, _⟩ => ⟨S_, .f32⟩
  | .hbm, ⟨25, _⟩ => ⟨S6400000, .f32⟩
  | .hbm, ⟨26, _⟩ => ⟨S6400000x1, .f32⟩
  | .hbm, ⟨27, _⟩ => ⟨S6400000x1, .f32⟩
  | .hbm, ⟨28, _⟩ => ⟨S_, .f32⟩
  | .hbm, ⟨29, _⟩ => ⟨S6400000x1, .f32⟩
  | .hbm, ⟨30, _⟩ => ⟨S6400000x1, .f32⟩
  | .hbm, ⟨31, _⟩ => ⟨S6400000x2, .f32⟩
  | .hbm, ⟨32, _⟩ => ⟨S6400000x2, .f32⟩
  | .hbm, ⟨33, _⟩ => ⟨S_, .f32⟩
  | .hbm, ⟨34, _⟩ => ⟨S6400000x1, .f32⟩
  | .hbm, ⟨35, _⟩ => ⟨S6400000x1, .i1⟩
  | .hbm, ⟨36, _⟩ => ⟨S_, .f32⟩
  | .hbm, ⟨37, _⟩ => ⟨S_, .f32⟩
  | .hbm, ⟨38, _⟩ => ⟨S6400000x1, .f32⟩
  | .hbm, ⟨39, _⟩ => ⟨S6400000x1, .f32⟩
  | .hbm, ⟨40, _⟩ => ⟨S_, .f32⟩
  | .hbm, ⟨41, _⟩ => ⟨S6400000x1, .f32⟩
  | .hbm, ⟨42, _⟩ => ⟨S6400000x1, .f32⟩
  | .hbm, ⟨43, _⟩ => ⟨S6400000x1, .f32⟩
  | .hbm, ⟨44, _⟩ => ⟨S6400000x1, .f32⟩
  | .hbm, ⟨45, _⟩ => ⟨S6400000x1, .f32⟩
  | .hbm, ⟨46, _⟩ => ⟨S_, .f32⟩
  | .hbm, ⟨47, _⟩ => ⟨S6400000x1, .f32⟩
  | .hbm, ⟨48, _⟩ => ⟨S6400000x1, .f32⟩
  | .hbm, ⟨49, _⟩ => ⟨S6400000x1, .f32⟩
  | .hbm, ⟨50, _⟩ => ⟨S6400000x1, .f32⟩
  | .hbm, ⟨51, _⟩ => ⟨S6400000x1, .f32⟩
  | .hbm, ⟨52, _⟩ => ⟨S_, .f32⟩
  | .hbm, ⟨53, _⟩ => ⟨S6400000x1, .f32⟩
  | .hbm, ⟨54, _⟩ => ⟨S6400000x1, .f32⟩
  | .hbm, ⟨55, _⟩ => ⟨S_, .f32⟩
  | .hbm, ⟨56, _⟩ => ⟨S6400000x1, .f32⟩
  | .hbm, ⟨57, _⟩ => ⟨S6400000x1, .f32⟩
  | .hbm, ⟨58, _⟩ => ⟨S6400000x1, .f32⟩
  | .hbm, ⟨59, _⟩ => ⟨S6400000x1, .f32⟩
  | .hbm, ⟨60, _⟩ => ⟨S6400000x2, .f32⟩
  | .hbm, ⟨61, _⟩ => ⟨S6400000x2, .f32⟩
  | .hbm, ⟨62, _⟩ => ⟨S_, .f32⟩
  | .hbm, ⟨63, _⟩ => ⟨S100000x2, .f32⟩
  | .hbm, ⟨64, _⟩ => ⟨S6400000x1, .i32⟩
  | .hbm, ⟨65, _⟩ => ⟨S100000x2, .f32⟩
  | .hbm, ⟨66, _⟩ => ⟨S_, .f32⟩
  | .hbm, ⟨67, _⟩ => ⟨S100000x2, .f32⟩
  | .hbm, ⟨68, _⟩ => ⟨S100000x2, .f32⟩
  | .hbm, ⟨69, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  reducesTo_S6400000x2_S6400000_d1 : S6400000x2.ReducesTo [1] S6400000
  h_S_ : 0 < S_.numel
  bcast_S_S6400000x1 : S_.BroadcastsInDim S6400000x1 (![] : Fin 0 → Fin S6400000x1.rank)
  bcast_S6400000x1_S6400000x2_0_1 : S6400000x1.BroadcastsInDim S6400000x2 (![0, 1] : Fin 2 → Fin S6400000x2.rank)
  bcast_S_S100000x2 : S_.BroadcastsInDim S100000x2 (![] : Fin 0 → Fin S100000x2.rank)
  gather_S100000x2_S6400000x1_S6400000x2_1_0_n_n_0_1_12_wf : GatherDims.WF S100000x2 S6400000x1 S6400000x2 [1] [0] [] [0] [] 1 ![1, 2]
  scatter_S100000x2_S6400000x1_S6400000x2_1_0_0_1_wf : ScatterDims.WF S100000x2 S6400000x1 S6400000x2 [1] [0] [0] 1

variable [Facts₀]

def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

class Facts : Prop extends Facts₀ where

variable [Facts]
-- ==== Proof.HostDefs.lean ====
/-
  The host operations that prepare the kernel's two input arrays, as functions of the inputs.

  The program concatenates the source and destination edge words (12,800,000 words), wraps negative words by the table
  height, looks the words up in the transposed position table (a [2, 100000] table, one column per node) and fills with
  a not-a-number pattern where a wrapped word is outside [0, 99999]. The first half of the columns is the source side, the
  second half the destination side; each half is re-laid as [2, 50000, 128], edge e at row e / 128, lane e % 128.
-/
import proofs.«409501_j9517647528245_3_alg».proof.KernelIdeal
import proofs.«409501_j9517647528245_3_alg».proof.Proof.Gen.KernelIdeal

noncomputable section

namespace Cert.KernelIdeal.HostSide

open Cert.KernelIdeal Idealize.ShloMosaic
open Facts₀

variable {F : FTy → Type} [FloatOps F]

/-- The source words followed by the destination words. -/
def cat (S D : IVec S6400000 32) : IVec S12800000 32 :=
  concatenate S12800000 0 [⟨S6400000, S⟩, ⟨S6400000, D⟩] concatenates_S6400000_S6400000_S12800000_d0

/-- The concatenated words with the table height added where a word is negative. -/
def wrapped (S D : IVec S6400000 32) : IVec S12800000 32 :=
  select (cmpi .slt (cat S D) (broadcastInDim S12800000 ![] bcast_S_S12800000 (constantI S_ 32 0#32)))
    (addi (cat S D) (broadcastInDim S12800000 ![] bcast_S_S12800000 (constantI S_ 32 100000#32))) (cat S D)

/-- The wrapped words as the lookup's start words, one column. -/
def startWords (S D : IVec S6400000 32) : IVec S12800000x1 32 :=
  broadcastInDim S12800000x1 ![0] bcast_S12800000_S12800000x1_0 (wrapped S D)

/-- Per word: is the wrapped word inside [0, 99999]? -/
def inside (S D : IVec S6400000 32) : IVec S12800000 1 :=
  Host.reduce IntOp.andi
    (andi (cmpi .sge (startWords S D) (broadcastInDim S12800000x1 ![] bcast_S_S12800000x1 (constantI S_ 32 0#32)))
      (cmpi .sle (startWords S D)
        (broadcastInDim S12800000x1 ![0, 1] bcast_S1x1_S12800000x1_0_1
          (broadcastInDim S1x1 ![1] bcast_S1_S1x1_1 (constantI S1 32 99999#32)))))
    (constantI S_ 1 1#1) reducesTo_S12800000x1_S12800000_d1 h_S_

/-- The looked-up columns of the transposed table, filled where the word is outside the table. -/
def taken (X : FVec F S100000x2 .f32) (S D : IVec S6400000 32) : FVec F S2x12800000 .f32 :=
  select (broadcastInDim S2x12800000 ![1] bcast_S12800000_S2x12800000_1 (inside S D))
    (Host.gather gather_S2x100000_S12800000x1_S2x12800000_0_1_n_n_1_1_21
      (transpose S2x100000 [1, 0] X transposes_S100000x2_S2x100000_1_0) (startWords S D))
    (broadcastInDim S2x12800000 ![] bcast_S_S2x12800000 (constant S_ .f32 0x7FC00000#32))

/-- The kernel's source array: the first half of the looked-up columns, re-laid as [2, 50000, 128]. -/
def srcArr (X : FVec F S100000x2 .f32) (S D : IVec S6400000 32) : FVec F S2x50000x128 .f32 :=
  shapeCast S2x50000x128
    (extractStridedSlice S2x6400000 ![0, 0] (taken X S D) slices_S2x12800000_S2x6400000_0_0)
    shapeCasts_S2x6400000_S2x50000x128

/-- The kernel's destination array: the second half of the looked-up columns, re-laid as [2, 50000, 128]. -/
def dstArr (X : FVec F S100000x2 .f32) (S D : IVec S6400000 32) : FVec F S2x50000x128 .f32 :=
  shapeCast S2x50000x128
    (extractStridedSlice S2x6400000 ![0, 6400000] (taken X S D) slices_S2x12800000_S2x6400000_0_6400000)
    shapeCasts_S2x6400000_S2x50000x128

/-- The program's result from the kernel's output array: re-laid as [6400000, 2], scatter-added by destination node
    onto zeros, less 0.1 times the velocities. -/
def resultOf (O : FVec F S2x50000x128 .f32) (V : FVec F S100000x2 .f32) (D : IVec S6400000 32) : FVec F S100000x2 .f32 :=
  subf
    (Host.scatterAdd scatter_S100000x2_S6400000x1_S6400000x2_1_0_0_1
      (broadcastInDim S100000x2 ![] bcast_S_S100000x2 (constant S_ .f32 0x00000000#32))
      (broadcastInDim S6400000x1 ![0] bcast_S6400000_S6400000x1_0 D)
      (transpose S6400000x2 [1, 0] (shapeCast S2x6400000 O shapeCasts_S2x50000x128_S2x6400000) transposes_S2x6400000_S6400000x2_1_0))
    (mulf (broadcastInDim S100000x2 ![] bcast_S_S100000x2 (constant S_ .f32 0x3DCCCCCD#32)) V)

end Cert.KernelIdeal.HostSide

end
-- ==== Proof.HostOps.lean ====
/-
  The second stretch of host operations before the kernel region, cut in two: the 18 operations up to the
  inside-the-table test, and the 5 that follow (the lookup, the fill and their select); and the rule that two lines run
  one after the other are the second run from what the first leaves.
-/
import proofs.«409501_j9517647528245_3_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Gen.Stages

variable {F : FTy → Type} [FloatOps F]

/-- The second stretch up to the inside-the-table test: its first 18 operations. -/
abbrev opsA : List (HloOp τ sig (Elt F)) := (hostOps0_1 : List (HloOp τ sig (Elt F))).take 18

/-- The rest of the second stretch: the lookup, the fill and their select. -/
abbrev opsB : List (HloOp τ sig (Elt F)) := (hostOps0_1 : List (HloOp τ sig (Elt F))).drop 18

theorem split : (hostOps0_1 : List (HloOp τ sig (Elt F))) = opsA ++ opsB := (List.take_append_drop 18 _).symm

/-- Two lines one after the other: the second from what the first leaves. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- Three stretches one after the other. -/
theorem after_flatten3 (a b c : List (HloOp τ sig (Elt F))) (W : Valuation τ sig (Elt F)) :
    after (List.flatten [a, b, c]) W = after c (after b (after a W)) := by
  simp only [List.flatten_cons, List.flatten_nil, List.append_nil, after_append]

end Cert.KernelIdeal.Gen.Stages

end
-- ==== Proof.HostStages.lean ====
/-
  The host operations before the kernel region, stage by stage.

  The 29 operations run in four stretches: the transposed table and the concatenated edge words; the wrapped words,
  the start words and the inside-the-table test; the lookup, the fill and their select; the two halves re-laid for the
  kernel. Each stretch's results are stated over ANY contents the stretch starts from, so that each later stretch reads
  the earlier results as names, not as their definitions.
-/
import proofs.«409501_j9517647528245_3_alg».proof.Proof.HostOps
import proofs.«409501_j9517647528245_3_alg».proof.Proof.HostDefs
import Idealize.ShloMosaic.Lib.StableHlo.Run

set_option maxRecDepth 16384
set_option Elab.async false

noncomputable section

open Idealize.ShloMosaic Idealize.ShloMosaic.TcCoe Idealize.SL.Sem Idealize.ShloMosaic.StableHlo

namespace Cert.KernelIdeal.Gen.Stages

open Cert.KernelIdeal.HostSide

-- the array-wide operations are compared by their operands only: they stay folded
attribute [local irreducible] Host.reduce Host.gather shapeCast extractStridedSlice transpose concatenate broadcastInDim

variable {F : FTy → Type} [FloatOps F]
variable (W : Valuation τ sig (Elt F))

theorem s1_v0 (X : FVec F S100000x2 .f32) (hX : W (Proc.devRef .tc main_arg0) = X) :
    after hostOps0 W (Proc.devRef .tc main_v0) = transpose S2x100000 [1, 0] X Facts₀.transposes_S100000x2_S2x100000_1_0 := by
  subst hX
  simp only [hostOps0]
  after_results

theorem s1_v1 (S D : IVec S6400000 32) (hS : W (Proc.devRef .tc main_arg2) = S) (hD : W (Proc.devRef .tc main_arg3) = D) :
    after hostOps0 W (Proc.devRef .tc main_v1) = cat S D := by
  subst hS hD
  simp only [hostOps0]
  after_results
  rfl

set_option maxHeartbeats 4000000 in
theorem sA_v12 (S D : IVec S6400000 32) (hC : W (Proc.devRef .tc main_v1) = cat S D) :
    after opsA W (Proc.devRef .tc main_call0_v12) = inside S D := by
  generalize hZ : inside S D = Z
  simp only [opsA, hostOps0_1, List.take_succ_cons, List.take_zero]
  after_results
  rw [hC, ← hZ]
  rfl

set_option maxHeartbeats 4000000 in
theorem sA_v5 (S D : IVec S6400000 32) (hC : W (Proc.devRef .tc main_v1) = cat S D) :
    after opsA W (Proc.devRef .tc main_call0_v5) = startWords S D := by
  generalize hZ : startWords S D = Z
  simp only [opsA, hostOps0_1, List.take_succ_cons, List.take_zero]
  after_results
  rw [hC, ← hZ]
  rfl

set_option maxHeartbeats 4000000 in
theorem sA_v0 : after opsA W (Proc.devRef .tc main_v0) = W (Proc.devRef .tc main_v0) := by
  simp only [opsA, hostOps0_1, List.take_succ_cons, List.take_zero]
  after_results

/-- The casts around the select's three operands and its result are the identity on these buffers' types. -/
theorem pa (A : IVec S2x12800000 1) (B C : FVec F S2x12800000 .f32) :
    (TRef.of main_v2 : TRef sig ⟨S2x12800000, .f32⟩).toBuf (Val := Elt F) (select A B C) = select A B C := rfl

theorem pb (M : IVec S12800000 1) :
    (TRef.of main_call0_v14 : TRef sig ⟨S2x12800000, .i1⟩).ofBuf (Val := Elt F) ((TRef.of main_call0_v14 : TRef sig ⟨S2x12800000, .i1⟩).toBuf
      (broadcastInDim S2x12800000 ![1] Facts₀.bcast_S12800000_S2x12800000_1 ((TRef.of main_call0_v12 : TRef sig ⟨S12800000, .i1⟩).ofBuf (Val := Elt F) M)))
      = broadcastInDim S2x12800000 ![1] Facts₀.bcast_S12800000_S2x12800000_1 M := rfl

theorem pc (T : FVec F S2x100000 .f32) (I : IVec S12800000x1 32) :
    (TRef.of main_call0_v13 : TRef sig ⟨S2x12800000, .f32⟩).ofBuf (Val := Elt F) ((TRef.of main_call0_v13 : TRef sig ⟨S2x12800000, .f32⟩).toBuf
      ((fun x i => Host.gather gather_S2x100000_S12800000x1_S2x12800000_0_1_n_n_1_1_21 x i)
        ((TRef.of main_v0 : TRef sig ⟨S2x100000, .f32⟩).ofBuf (Val := Elt F) T) ((TRef.of main_call0_v5 : TRef sig ⟨S12800000x1, .i32⟩).ofBuf (Val := Elt F) I)))
      = Host.gather gather_S2x100000_S12800000x1_S2x12800000_0_1_n_n_1_1_21 T I := rfl

theorem pd :
    (TRef.of main_call0_v15 : TRef sig ⟨S2x12800000, .f32⟩).ofBuf (Val := Elt F) ((TRef.of main_call0_v15 : TRef sig ⟨S2x12800000, .f32⟩).toBuf
      (broadcastInDim S2x12800000 ![] Facts₀.bcast_S_S2x12800000 ((TRef.of main_call0_cst : TRef sig ⟨S_, .f32⟩).ofBuf (Val := Elt F)
        ((TRef.of main_call0_cst : TRef sig ⟨S_, .f32⟩).toBuf (constant S_ .f32 0x7FC00000#32)))))
      = broadcastInDim S2x12800000 ![] Facts₀.bcast_S_S2x12800000 (constant (F := F) S_ .f32 0x7FC00000#32) := rfl

set_option maxHeartbeats 4000000 in
theorem sB_v2 (X : FVec F S100000x2 .f32) (S D : IVec S6400000 32)
    (h0 : W (Proc.devRef .tc main_v0) = transpose S2x100000 [1, 0] X Facts₀.transposes_S100000x2_S2x100000_1_0)
    (h5 : W (Proc.devRef .tc main_call0_v5) = startWords S D)
    (h12 : W (Proc.devRef .tc main_call0_v12) = inside S D) :
    after opsB W (Proc.devRef .tc main_v2) = taken X S D := by
  simp only [opsB, hostOps0_1, List.drop_succ_cons, List.drop_zero]
  after_results
  rw [h0, h5, h12]
  refine (pa _ _ _).trans ?_
  rw [pb, pc, pd]
  rfl
theorem s3_v5 (T : FVec F S2x12800000 .f32) (hT : W (Proc.devRef .tc main_v2) = T) :
    after hostOps0_2 W (Proc.devRef .tc main_v5)
      = shapeCast S2x50000x128 (extractStridedSlice S2x6400000 ![0, 0] T Facts₀.slices_S2x12800000_S2x6400000_0_0)
          Facts₀.shapeCasts_S2x6400000_S2x50000x128 := by
  subst hT
  simp only [hostOps0_2]
  after_results
  rfl

theorem s3_v6 (T : FVec F S2x12800000 .f32) (hT : W (Proc.devRef .tc main_v2) = T) :
    after hostOps0_2 W (Proc.devRef .tc main_v6)
      = shapeCast S2x50000x128 (extractStridedSlice S2x6400000 ![0, 6400000] T Facts₀.slices_S2x12800000_S2x6400000_0_6400000)
          Facts₀.shapeCasts_S2x6400000_S2x50000x128 := by
  subst hT
  simp only [hostOps0_2]
  after_results
  rfl

end Cert.KernelIdeal.Gen.Stages

end
-- ==== Proof.KernelHost.lean ====
/-
  The arrays the kernel region finds, and the program's result from the kernel's output array.

  Before the region the host operations leave the source and destination arrays of HostDefs.lean in the kernel's two
  input buffers (HostStages.lean, stretch by stretch); after it they re-lay the kernel's output as [6400000, 2],
  scatter-add it by destination node onto zeros and subtract 0.1 times the velocities.
-/
import proofs.«409501_j9517647528245_3_alg».proof.Proof.Gen.KernelIdeal.Frame
import proofs.«409501_j9517647528245_3_alg».proof.Proof.HostDefs
import proofs.«409501_j9517647528245_3_alg».proof.Proof.HostStages
import Idealize.ShloMosaic.Lib.StableHlo.Run

set_option maxRecDepth 16384
set_option Elab.async false

noncomputable section

open Idealize.ShloMosaic Idealize.ShloMosaic.TcCoe Idealize.SL.Sem Idealize.ShloMosaic.StableHlo

namespace Cert.KernelIdeal.HostRun

open Cert.KernelIdeal Cert.KernelIdeal.Gen Cert.KernelIdeal.HostSide Cert.KernelIdeal.Gen.Stages

-- the scatter-add is compared by its operands only: it stays folded
attribute [local irreducible] Host.scatterAdd shapeCast transpose broadcastInDim

variable {F : FTy → Type} [FloatOps F]
variable (m : (ℓ : Loc nD τ sig) → Buf (Elt F) ℓ)

/-- The contents the region finds are the four stretches run in order from the launch contents. -/
theorem V0_eq (c : Dev nD) :
    V0 m c = after hostOps0_2 (after opsB (after opsA (after hostOps0 (fun b => m (c, b))))) := by
  show after (List.flatten [hostOps0, hostOps0_1, hostOps0_2]) (fun b => m (c, b)) = _
  rw [after_flatten3, split, after_append]

/-- After the first two stretches' lookups: the looked-up columns. -/
theorem taken_eq (c : Dev nD) :
    after opsB (after opsA (after hostOps0 (fun b => m (c, b)))) (Proc.devRef .tc main_v2)
      = taken (m ((c : Thread nD τ).loc main_arg0)) (m ((c : Thread nD τ).loc main_arg2)) (m ((c : Thread nD τ).loc main_arg3)) :=
  sB_v2 _ _ _ _
    ((sA_v0 _).trans (s1_v0 _ (m ((c : Thread nD τ).loc main_arg0)) rfl))
    (sA_v5 _ _ _ (s1_v1 _ (m ((c : Thread nD τ).loc main_arg2)) (m ((c : Thread nD τ).loc main_arg3)) rfl rfl))
    (sA_v12 _ _ _ (s1_v1 _ (m ((c : Thread nD τ).loc main_arg2)) (m ((c : Thread nD τ).loc main_arg3)) rfl rfl))

/-- The region finds the source array in its first input buffer. -/
theorem V_src (c : Dev nD) :
    (V m c (Pipeline.arrRef spec0 0) : S2x50000x128.Idx → Elt F .f32)
      = srcArr (m ((c : Thread nD τ).loc main_arg0)) (m ((c : Thread nD τ).loc main_arg2)) (m ((c : Thread nD τ).loc main_arg3)) := by
  show V0 m c (Proc.devRef .tc main_v5) = _
  rw [V0_eq]
  exact s3_v5 _ _ (taken_eq m c)

/-- The region finds the destination array in its second input buffer. -/
theorem V_dst (c : Dev nD) :
    (V m c (Pipeline.arrRef spec0 1) : S2x50000x128.Idx → Elt F .f32)
      = dstArr (m ((c : Thread nD τ).loc main_arg0)) (m ((c : Thread nD τ).loc main_arg2)) (m ((c : Thread nD τ).loc main_arg3)) := by
  show V0 m c (Proc.devRef .tc main_v6) = _
  rw [V0_eq]
  exact s3_v6 _ _ (taken_eq m c)

set_option maxHeartbeats 4000000 in
/-- The program's result buffer after the host operations that follow the region, from the kernel's output array as
    the run leaves it. -/
theorem tail_eq (c : Dev nD) :
    Pipeline.afterTail₀ cfgs (dats m) 0 (V0 m) [hostOps1] c main_v15
      = resultOf ((dats m 0 c).arrAt 2 cfg0.N) (m ((c : Thread nD τ).loc main_arg1)) (m ((c : Thread nD τ).loc main_arg3)) := by
  unfold Pipeline.afterTail₀
  have h7 : Pipeline.withArrays (cfgs 0).spec c (V0 m c) (fun w => (dats m 0 c).arrAt w (cfgs 0).N) (Proc.devRef .tc main_v7)
      = (dats m 0 c).arrAt 2 cfg0.N :=
    Pipeline.withArrays_arr spec0 launch0.win.arr_inj c (V0 m c) (fun w => (dats m 0 c).arrAt w cfg0.N) 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  generalize hZ : resultOf ((dats m 0 c).arrAt 2 cfg0.N) (m ((c : Thread nD τ).loc main_arg1)) (m ((c : Thread nD τ).loc main_arg3)) = Z
  generalize Pipeline.withArrays (cfgs 0).spec c (V0 m c) (fun w => (dats m 0 c).arrAt w (cfgs 0).N) = W at h7 h1 h3 ⊢
  show StableHlo.after hostOps1 W (Proc.devRef .tc main_v15) = Z
  simp only [hostOps1]
  after_results
  rw [h7, h1, h3, ← hZ]
  rfl

end Cert.KernelIdeal.HostRun

end
-- ==== Proof.Force.lean ====
/-
  The pairwise force message, as one function of the inputs.

  For an edge e with source node s and destination node d, let δ = x[d] − x[s] (a vector of two components), n = √(δ₀² + δ₁²)
  its length, r = n where n > 0.1 and 0.1 otherwise, u = 1 / r. The Lennard-Jones force magnitude is
  f = 4·u⁶·(12·u⁶ − 6) / r, with u⁶ = u²·(u²·u²), and component k of the message is (δₖ / max(n, 1e-12)) · f.
  The update array handed to the scatter-add has this value at (e, k). Node rows are looked up the way the host's
  gather does it: a negative word has the table height added, the result is read signed and kept inside the table.
-/
import Idealize.ShloMosaic.Lib.ValueIdx
import Idealize.ShloMosaic.PureOps.Ideal

noncomputable section

namespace Cert.Force

open Idealize.ShloMosaic Idealize.ShloMosaic.ValueIdx

variable {F : FTy → Type} [FloatOps F]

/-- Component k of the message from the two components d0, d1 of the difference vector and its component dk. -/
def pairMsg (d0 d1 dk : F .f32) : F .f32 :=
  FloatOps.mulf
    (FloatOps.divf dk
      (FloatOps.maximumf (FloatOps.sqrt (FloatOps.addf (FloatOps.mulf d0 d0) (FloatOps.mulf d1 d1)))
        (FloatOps.ofBits .f32 0x2B8CBCCC#32)))
    (forceOf (FloatOps.sqrt (FloatOps.addf (FloatOps.mulf d0 d0) (FloatOps.mulf d1 d1))))
where
  /-- The force magnitude at distance n, the distance kept at least 0.1. -/
  forceOf (n : F .f32) : F .f32 :=
    FloatOps.divf
      (FloatOps.mulf (FloatOps.mulf (FloatOps.ofBits .f32 0x40800000#32) (sixth (clampDist n)))
        (FloatOps.subf (FloatOps.mulf (FloatOps.ofBits .f32 0x41400000#32) (sixth (clampDist n)))
          (FloatOps.ofBits .f32 0x40C00000#32)))
      (clampDist n)
  /-- The distance kept at least 0.1. -/
  clampDist (n : F .f32) : F .f32 :=
    Scalar.select (FloatOps.cmpf .ogt n (FloatOps.ofBits .f32 0x3DCCCCCD#32)) n (FloatOps.ofBits .f32 0x3DCCCCCD#32)
  /-- (1/r)⁶ by repeated squaring: u²·(u²·u²). -/
  sixth (r : F .f32) : F .f32 :=
    FloatOps.mulf (FloatOps.mulf (FloatOps.divf (FloatOps.ofBits .f32 0x3F800000#32) r) (FloatOps.divf (FloatOps.ofBits .f32 0x3F800000#32) r))
      (FloatOps.mulf (FloatOps.mulf (FloatOps.divf (FloatOps.ofBits .f32 0x3F800000#32) r) (FloatOps.divf (FloatOps.ofBits .f32 0x3F800000#32) r))
        (FloatOps.mulf (FloatOps.divf (FloatOps.ofBits .f32 0x3F800000#32) r) (FloatOps.divf (FloatOps.ofBits .f32 0x3F800000#32) r)))

/-- A node word with numpy's wrap of negative indices: the table height added where the word is negative. -/
def wrapIdx (w : BitVec 32) : BitVec 32 :=
  Scalar.select (IntOp.cmpi .slt w 0#32) (IntOp.addi w 100000#32) w

/-- The table row a start word names: read signed, kept inside the table of 100000 rows. -/
def rowOf (w : BitVec 32) : Fin 100000 := ⟨min w.toInt.toNat (100000 - 1), by omega⟩

/-- Component k of the difference vector of edge e: x[dst e, k] − x[src e, k]. -/
def diff (X : (⟨2, ![100000, 2]⟩ : Shape).Idx → F .f32) (S D : IVec ⟨1, ![6400000]⟩ 32) (e : Fin 6400000) (k : Fin 2) : F .f32 :=
  FloatOps.subf (X (ix2 (rowOf (wrapIdx (D (ix1 e)))) k)) (X (ix2 (rowOf (wrapIdx (S (ix1 e)))) k))

/-- The update array of the scatter-add: at (e, k), component k of edge e's message. -/
def updates (X : (⟨2, ![100000, 2]⟩ : Shape).Idx → F .f32) (S D : IVec ⟨1, ![6400000]⟩ 32) :
    (⟨2, ![6400000, 2]⟩ : Shape).Idx → F .f32 :=
  fun i => pairMsg (diff X S D (i 0) 0) (diff X S D (i 0) 1) (diff X S D (i 0) (i 1))

/-- Every word of an edge-index array names a node: 0 ≤ word < 100000, read signed. -/
def InRange (S : IVec ⟨1, ![6400000]⟩ 32) : Prop :=
  ∀ e : Fin 6400000, 0 ≤ (S (ix1 e)).toInt ∧ (S (ix1 e)).toInt < 100000

end Cert.Force

end
-- ==== Proof.KernelPayload.lean ====
/-
  The kernel body's stored value at an index of its block.

  The body loads the source block x0 and the destination block x1, both of shape [2, 2000, 128] (component, row, lane),
  forms their difference, and from the two component planes of the difference computes, lane by lane, the message of
  Force.lean. At (k, r, l) the stored value is the message component k of the pair of differences at (·, r, l).
-/
import proofs.«409501_j9517647528245_3_alg».proof.Proof.Gen.KernelIdeal.Skeleton
import proofs.«409501_j9517647528245_3_alg».proof.Proof.Gen.KernelIdeal
import proofs.«409501_j9517647528245_3_alg».proof.Proof.Force
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Cert.Force

variable {F : FTy → Type} [FloatOps F]

/-- A plane broadcast over the two components reads the plane at (0, r, l). -/
theorem plane_bcast (v : FVec F S1x2000x128 .f32) (k : Fin 2) (r : Fin 2000) (l : Fin 128) :
    broadcastTo S2x2000x128 v Facts₀.broadcasts_S1x2000x128_S2x2000x128 (ix3 k r l) = v (ix3 (0 : Fin 1) r l) :=
  broadcastTo_apply v _ (ix3 k r l) (ix3 (0 : Fin 1) r l) (fun a => by
    match a with
    | ⟨0, _⟩ => rfl
    | ⟨1, _⟩ => rfl
    | ⟨2, _⟩ => rfl)

/-- Component plane c of a [2, 2000, 128] value, read at (0, r, l). -/
theorem plane0 (v : FVec F S2x2000x128 .f32) (r : Fin 2000) (l : Fin 128) :
    extractStridedSlice S1x2000x128 ![0, 0, 0] v Facts₀.slices_S2x2000x128_o0_0_0_S1x2000x128 (ix3 (0 : Fin 1) r l) = v (ix3 (0 : Fin 2) r l) :=
  extractStridedSlice_apply _ v _ (ix3 (0 : Fin 1) r l) (ix3 (0 : Fin 2) r l) (fun a => by
    match a with
    | ⟨0, _⟩ => rfl
    | ⟨1, _⟩ => show r.val = 0 + r.val; omega
    | ⟨2, _⟩ => show l.val = 0 + l.val; omega)

theorem plane1 (v : FVec F S2x2000x128 .f32) (r : Fin 2000) (l : Fin 128) :
    extractStridedSlice S1x2000x128 ![1, 0, 0] v Facts₀.slices_S2x2000x128_o1_0_0_S1x2000x128 (ix3 (0 : Fin 1) r l) = v (ix3 (1 : Fin 2) r l) :=
  extractStridedSlice_apply _ v _ (ix3 (0 : Fin 1) r l) (ix3 (1 : Fin 2) r l) (fun a => by
    match a with
    | ⟨0, _⟩ => rfl
    | ⟨1, _⟩ => show r.val = 0 + r.val; omega
    | ⟨2, _⟩ => show l.val = 0 + l.val; omega)

/-- The stored value at (k, r, l): the message component k of the differences at (·, r, l). -/
theorem pay_apply (x0 x1 : Vec F S2x2000x128 .f32) (k : Fin 2) (r : Fin 2000) (l : Fin 128) :
    k0_pay1 x0 x1 (ix3 k r l)
      = pairMsg (FloatOps.subf (x1 (ix3 (0 : Fin 2) r l)) (x0 (ix3 (0 : Fin 2) r l)))
          (FloatOps.subf (x1 (ix3 (1 : Fin 2) r l)) (x0 (ix3 (1 : Fin 2) r l)))
          (FloatOps.subf (x1 (ix3 k r l)) (x0 (ix3 k r l))) := by
  unfold k0_pay1
  simp only [shapeCast_self]
  simp only [mulf, divf, subf, addf, sqrt, maximumf, select, cmpf, broadcast, plane_bcast, plane0, plane1]
  rfl

end Cert.KernelIdeal.Payload

end
-- ==== Proof.KernelArray.lean ====
/-
  The kernel's output array after the run, as one function of the two input arrays.

  The grid has 25 points; point t works on rows 2000·t … 2000·t + 1999 of the [2, 50000, 128] arrays, all components and
  all lanes. The three windows (source, destination, output) move together, so block t of the output is the message
  function of block t of the inputs, and the 25 blocks tile the array: the whole output array is the message function
  of the whole input arrays, index by index.
-/
import proofs.«409501_j9517647528245_3_alg».proof.Proof.Gen.KernelIdeal.Frame
import proofs.«409501_j9517647528245_3_alg».proof.Proof.KernelPayload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Payload Idealize.ShloMosaic.ValueIdx Cert.Force

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The whole output array from the whole source and destination arrays: at (k, b, l) the message component k of the
    differences at (·, b, l). -/
def wholeOut (a5 a6 : S2x50000x128.Idx → Elt F .f32) : S2x50000x128.Idx → Elt F .f32 := fun i =>
  pairMsg (FloatOps.subf (a6 (ix3 (0 : Fin 2) (i 1) (i 2))) (a5 (ix3 (0 : Fin 2) (i 1) (i 2))))
    (FloatOps.subf (a6 (ix3 (1 : Fin 2) (i 1) (i 2))) (a5 (ix3 (1 : Fin 2) (i 1) (i 2))))
    (FloatOps.subf (a6 (ix3 (i 0) (i 1) (i 2))) (a5 (ix3 (i 0) (i 1) (i 2))))

/-- The printed index maps over the grid: every window's block index at point t is (0, t, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Block t of window 0 of any array A, read at (k, r, l), is A at (k, 2000·t + r, l). -/
theorem read_blk0 (t : Fin cfg0.N) (A : S2x50000x128.Idx → Elt F .f32) (k : Fin 2) (r : Fin 2000) (l : Fin 128) (b : Fin 50000)
    (hb : b.val = t.val * 2000 + r.val) :
    ((cfg0.win 0).blk t).view.read (Elt F) A (ix3 k r l) = A (ix3 k b l) := by
  obtain ⟨e0, e1, e2, -⟩ := idx_facts t
  rw [View.read_apply]
  show A (((cfg0.win 0).blk t).view.emb (ix3 k r l)) = A (ix3 k b l)
  refine congrArg A ?_
  funext a
  apply Fin.ext
  match a with
  | ⟨0, _⟩ => show win0_0.index t (0 : Fin 3) * 2 + 1 * k.val = k.val; rw [e0]; omega
  | ⟨1, _⟩ => show win0_0.index t (1 : Fin 3) * 2000 + 1 * r.val = b.val; rw [e1, hb]; omega
  | ⟨2, _⟩ => show win0_0.index t (2 : Fin 3) * 128 + 1 * l.val = l.val; rw [e2]; omega

/-- Block t of window 1 of any array A, read at (k, r, l), is A at (k, 2000·t + r, l). -/
theorem read_blk1 (t : Fin cfg0.N) (A : S2x50000x128.Idx → Elt F .f32) (k : Fin 2) (r : Fin 2000) (l : Fin 128) (b : Fin 50000)
    (hb : b.val = t.val * 2000 + r.val) :
    ((cfg0.win 1).blk t).view.read (Elt F) A (ix3 k r l) = A (ix3 k b l) := by
  obtain ⟨-, -, -, e0, e1, e2, -⟩ := idx_facts t
  rw [View.read_apply]
  show A (((cfg0.win 1).blk t).view.emb (ix3 k r l)) = A (ix3 k b l)
  refine congrArg A ?_
  funext a
  apply Fin.ext
  match a with
  | ⟨0, _⟩ => show win0_1.index t (0 : Fin 3) * 2 + 1 * k.val = k.val; rw [e0]; omega
  | ⟨1, _⟩ => show win0_1.index t (1 : Fin 3) * 2000 + 1 * r.val = b.val; rw [e1, hb]; omega
  | ⟨2, _⟩ => show win0_1.index t (2 : Fin 3) * 128 + 1 * l.val = l.val; rw [e2]; omega

/-- Block t of window 2 of any array A, read at (k, r, l), is A at (k, 2000·t + r, l). -/
theorem read_blk2 (t : Fin cfg0.N) (A : S2x50000x128.Idx → Elt F .f32) (k : Fin 2) (r : Fin 2000) (l : Fin 128) (b : Fin 50000)
    (hb : b.val = t.val * 2000 + r.val) :
    ((cfg0.win 2).blk t).view.read (Elt F) A (ix3 k r l) = A (ix3 k b l) := by
  obtain ⟨-, -, -, -, -, -, e0, e1, e2⟩ := idx_facts t
  rw [View.read_apply]
  show A (((cfg0.win 2).blk t).view.emb (ix3 k r l)) = A (ix3 k b l)
  refine congrArg A ?_
  funext a
  apply Fin.ext
  match a with
  | ⟨0, _⟩ => show win0_2.index t (0 : Fin 3) * 2 + 1 * k.val = k.val; rw [e0]; omega
  | ⟨1, _⟩ => show win0_2.index t (1 : Fin 3) * 2000 + 1 * r.val = b.val; rw [e1, hb]; omega
  | ⟨2, _⟩ => show win0_2.index t (2 : Fin 3) * 128 + 1 * l.val = l.val; rw [e2]; omega

/-- The body's stored value on block t of any two input arrays is block t of the whole-array function of them. -/
theorem blockwise (t : Fin cfg0.N) (A5 A6 : S2x50000x128.Idx → Elt F .f32) (j : S2x2000x128.Idx) :
    k0_pay1 (((cfg0.win 0).blk t).view.read (Elt F) A5) (((cfg0.win 1).blk t).view.read (Elt F) A6) j
      = ((cfg0.win 2).blk t).view.read (Elt F) (wholeOut A5 A6) j := by
  obtain ⟨k, r, l, rfl⟩ : ∃ (k : Fin 2) (r : Fin 2000) (l : Fin 128), j = ix3 k r l := ⟨j 0, j 1, j 2, eq_ix3 j⟩
  have hN : cfg0.N = 25 := N_0
  have hb : t.val * 2000 + r.val < 50000 := by have := t.isLt; have := r.isLt; omega
  refine (pay_apply _ _ k r l).trans ?_
  rw [read_blk2 t (wholeOut A5 A6) k r l ⟨t.val * 2000 + r.val, hb⟩ rfl,
    read_blk0 t A5 k r l ⟨t.val * 2000 + r.val, hb⟩ rfl, read_blk0 t A5 0 r l ⟨t.val * 2000 + r.val, hb⟩ rfl,
    read_blk0 t A5 1 r l ⟨t.val * 2000 + r.val, hb⟩ rfl,
    read_blk1 t A6 k r l ⟨t.val * 2000 + r.val, hb⟩ rfl, read_blk1 t A6 0 r l ⟨t.val * 2000 + r.val, hb⟩ rfl,
    read_blk1 t A6 1 r l ⟨t.val * 2000 + r.val, hb⟩ rfl]
  rfl

/-- What point t writes back is block t of the whole-array function of the input arrays as the region finds them. -/
theorem flushed_eq (c : Dev nD) (t : Fin cfg0.N) :
    (dats m 0 c).flushed 2 t = ((cfg0.win 2).blk t).view.read (Elt F)
      (wholeOut (V m c (Pipeline.arrRef spec0 0)) (V m c (Pipeline.arrRef spec0 1))) := by
  show (cfg0.win 2).cut (grid0.coords t) ((dats m 0 c).after 2 t) = _
  rw [after0_2]
  unfold out0_2
  rw [View.canon_unit_zero hz]
  simp only [View.ld_unit_zero (S := S2x2000x128) hz]
  unfold iblk
  generalize V m c (Pipeline.arrRef spec0 0) = A5
  generalize V m c (Pipeline.arrRef spec0 1) = A6
  funext j
  exact blockwise t A5 A6 j

/-- An index of the output array is in point t's block iff each coordinate is in the block's range on its axis. -/
theorem mem_blk (t : Fin cfg0.N) (i : S2x50000x128.Idx) :
    i ∈ ((cfg0.win 2).blk t).view.set ↔ ∀ a : Fin 3, win0_2.index t a * S2x2000x128.size a ≤ (i a).val
      ∧ (i a).val < win0_2.index t a * S2x2000x128.size a + S2x2000x128.size a := by
  show i ∈ ((View.whole main_v7).slice (win0_2.rect t)).set ↔ _
  rw [View.set_slice_whole, Rect.mem_set_unit]
  exact Iff.rfl

/-- The 25 blocks tile the output array: row b of any index lies in the block of point b / 2000. -/
theorem cover (i : S2x50000x128.Idx) :
    ∃ t : Fin cfg0.N, (cfg0.win 2).flush t = true ∧ i ∈ ((cfg0.win 2).blk t).view.set := by
  have hN : cfg0.N = 25 := N_0
  have h0 : (i 0).val < 2 := (i 0).isLt
  have h1 : (i 1).val < 50000 := (i 1).isLt
  have h2 : (i 2).val < 128 := (i 2).isLt
  have ht : (i 1).val / 2000 < cfg0.N := by rw [hN]; omega
  refine ⟨⟨(i 1).val / 2000, ht⟩, flush0_2 _, ?_⟩
  rw [mem_blk]
  obtain ⟨-, -, -, -, -, -, e0, e1, e2⟩ := idx_facts ⟨(i 1).val / 2000, ht⟩
  intro a
  match a with
  | ⟨0, _⟩ =>
    show win0_2.index ⟨(i 1).val / 2000, ht⟩ (0 : Fin 3) * 2 ≤ (i 0).val
      ∧ (i 0).val < win0_2.index ⟨(i 1).val / 2000, ht⟩ (0 : Fin 3) * 2 + 2
    rw [e0]; omega
  | ⟨1, _⟩ =>
    show win0_2.index ⟨(i 1).val / 2000, ht⟩ (1 : Fin 3) * 2000 ≤ (i 1).val
      ∧ (i 1).val < win0_2.index ⟨(i 1).val / 2000, ht⟩ (1 : Fin 3) * 2000 + 2000
    rw [e1]; show (i 1).val / 2000 * 2000 ≤ (i 1).val ∧ (i 1).val < (i 1).val / 2000 * 2000 + 2000; omega
  | ⟨2, _⟩ =>
    show win0_2.index ⟨(i 1).val / 2000, ht⟩ (2 : Fin 3) * 128 ≤ (i 2).val
      ∧ (i 2).val < win0_2.index ⟨(i 1).val / 2000, ht⟩ (2 : Fin 3) * 128 + 128
    rw [e2]; omega

/-- The output array after the run: the whole-array message function of the input arrays as the region finds them. -/
theorem final (c : Dev nD) :
    (dats m 0 c).arrAt 2 cfg0.N = wholeOut (V m c (Pipeline.arrRef spec0 0)) (V m c (Pipeline.arrRef spec0 1)) :=
  (dats m 0 c).arrAt_eq_of_cover 2 _ (fun t _ => flushed_eq m c t) cover

end Cert.KernelIdeal.Blocks

end
-- ==== Proof.Domain.lean ====
/-
  The precondition, read back. Its last two conjuncts say that every word of the two edge-index arrays,
  read signed, lies in [0, 100000): each is an all-reduction by "and" of the elementwise test (w ≥ 0) ∧ (w < 100000),
  and the predicate being 1 makes every such test 1. Two word facts follow for a word in that range: the wrap of
  negative indices leaves it unchanged, and the scatter's bounds test 0 ≤ w ≤ 99999 passes.
-/
import proofs.«409501_j9517647528245_3_alg».proof.Pre_finite_inputs
import proofs.«409501_j9517647528245_3_alg».proof.Proof.Gen.Pre_finite_inputs
import proofs.«409501_j9517647528245_3_alg».proof.Proof.Force
import Idealize.ShloMosaic.Lib.ReduceAll
import Idealize.ShloMosaic.Lib.Affine
import Idealize.ShloMosaic.Lib.ValueIdx

noncomputable section

namespace Cert.Domain

open Idealize.ShloMosaic Idealize.ShloMosaic.ValueIdx

/-- The literal words the tests compare against, read signed. -/
theorem toInt_zero : (0#32 : BitVec 32).toInt = 0 := by decide
theorem toInt_height : (100000#32 : BitVec 32).toInt = 100000 := by decide
theorem toInt_last : (99999#32 : BitVec 32).toInt = 99999 := by decide

open Cert.Pre_finite_inputs in
/-- One all-reduction read back: if "and" over every e of (W[e] ≥ 0) ∧ (W[e] < 100000) is 1, then each W[e], read
    signed, lies in [0, 100000). The reduction being 1 makes the test at each e equal to 1; the test is the "and" of
    two signed comparisons against the words 0 and 100000, broadcast from rank 0. -/
theorem inRange_of_all (W : IVec S6400000 32) (bc : S_.BroadcastsInDim S6400000 (![] : Fin 0 → Fin S6400000.rank))
    (hr : S6400000.ReducesTo [0] S_) (hu : 0 < S_.numel) (j : S_.Idx)
    (e : Host.reduce IntOp.andi
        (andi (cmpi .sge W (broadcastInDim S6400000 ![] bc (constantI S_ 32 0#32)))
          (cmpi .slt W (broadcastInDim S6400000 ![] bc (constantI S_ 32 100000#32))))
        (constantI S_ 1 1#1) hr hu j = 1#1) : Cert.Force.InRange W := by
  haveI : Subsingleton S_.Idx := ⟨fun a b => funext fun d => d.elim0⟩
  intro n
  have he := Host.reduce_andi_all _ _ hr hu j e (ix1 n)
  obtain ⟨ha, hb⟩ := IntOp.andi_eq_one.1 he
  have ha' : (0#32 : BitVec 32).toInt ≤ (W (ix1 n)).toInt := IntOp.cmpi_sge.1 ha
  have hb' : (W (ix1 n)).toInt < (100000#32 : BitVec 32).toInt := IntOp.cmpi_slt.1 hb
  rw [toInt_zero] at ha'
  rw [toInt_height] at hb'
  exact ⟨ha', hb'⟩

/-- The precondition gives both edge-index arrays in range: the predicate is an "and" of four all-reductions, the
    last two being the range tests of the source and destination words. -/
theorem inRange_of_pre {F : FTy → Type} [FloatOps F] (x v : FVec F Cert.Pre_finite_inputs.S100000x2 .f32) (S D : IVec Cert.Pre_finite_inputs.S6400000 32)
    (h : Cert.Pre_finite_inputs.fn (F := F) x v S D = fun _ => 1#1) : Cert.Force.InRange S ∧ Cert.Force.InRange D := by
  have h0 := congrFun h ix0
  dsimp only [Cert.Pre_finite_inputs.fn, Cert.Pre_finite_inputs.fn_part1] at h0
  obtain ⟨h1, hD⟩ := IntOp.andi_eq_one.1 h0
  obtain ⟨_, hS⟩ := IntOp.andi_eq_one.1 h1
  exact ⟨inRange_of_all S _ _ _ _ hS, inRange_of_all D _ _ _ _ hD⟩

/-- A word that reads nonnegative is left unchanged by the wrap: the test "w < 0" is not 1, so the select takes its
    second branch. -/
theorem wrapIdx_of_nonneg (w : BitVec 32) (h : 0 ≤ w.toInt) : Cert.Force.wrapIdx w = w := by
  have hn : ¬ IntOp.cmpi .slt w 0#32 = 1#1 := by
    rw [IntOp.cmpi_slt, toInt_zero]; omega
  unfold Cert.Force.wrapIdx Scalar.select
  exact if_neg hn

/-- A word in [0, 100000) passes the bounds test 0 ≤ w ≤ 99999. -/
theorem inside_of_range (w : BitVec 32) (h0 : 0 ≤ w.toInt) (h1 : w.toInt < 100000) :
    IntOp.andi (IntOp.cmpi .sge w 0#32) (IntOp.cmpi .sle w 99999#32) = 1#1 := by
  rw [IntOp.andi_eq_one, IntOp.cmpi_sge, IntOp.cmpi_sle, toInt_zero, toInt_last]
  omega

end Cert.Domain

end
-- ==== Proof.HostWords.lean ====
/-
  The host words of the kernel program, read at an index.

  The concatenation of the source and destination words reads the source word e at position e and the destination
  word e at position 6400000 + e. The wrapped word at a position is the wrap of the word there; the lookup's start word
  in the one column is the wrapped word. When both index arrays are in range, every wrapped word is the word itself and
  lies in [0, 99999], so the per-word bounds test, an "and" over the one column from 1, is 1 at every position.
-/
import proofs.«409501_j9517647528245_3_alg».proof.Proof.HostDefs
import proofs.«409501_j9517647528245_3_alg».proof.Proof.Domain
import proofs.«409501_j9517647528245_3_alg».proof.Proof.Force
import Idealize.ShloMosaic.Lib.Pipeline.Value
import Idealize.ShloMosaic.Lib.ValueIdx
import Idealize.ShloMosaic.PureOps.Reduce
import Idealize.ShloMosaic.Lib.Affine

noncomputable section

namespace Cert.KernelIdeal.HostWords

open Cert.KernelIdeal Cert.KernelIdeal.HostSide Idealize.ShloMosaic Idealize.ShloMosaic.ValueIdx
open Facts₀

/-- The concatenated words at a position in the first half: the source word there. -/
theorem cat_left (S D : IVec S6400000 32) (e : Fin 6400000) (j : Fin 12800000) (hj : j.val = e.val) :
    cat S D (ix1 j) = S (ix1 e) := by
  unfold cat
  exact concatenate_pair_apply_left (t := S12800000) 0 S D _ (ix1 j) rfl (ix1 e) (fun b => by
    match b with
    | ⟨0, _⟩ => exact hj.symm)

/-- The concatenated words at a position in the second half: the destination word, the first half's length less. -/
theorem cat_right (S D : IVec S6400000 32) (e : Fin 6400000) (j : Fin 12800000) (hj : j.val = 6400000 + e.val) :
    cat S D (ix1 j) = D (ix1 e) := by
  unfold cat
  exact concatenate_pair_apply_right (t := S12800000) 0 S D _ (ix1 j) rfl rfl (ix1 e)
    (fun b hb => by
      match b with
      | ⟨0, _⟩ => exact absurd rfl hb)
    (by show e.val + 6400000 = j.val; omega)

/-- The wrapped word at a position is the wrap of the concatenated word there. -/
theorem wrapped_apply (S D : IVec S6400000 32) (j : Fin 12800000) :
    wrapped S D (ix1 j) = Cert.Force.wrapIdx (cat S D (ix1 j)) := rfl

theorem wrapped_left (S D : IVec S6400000 32) (e : Fin 6400000) (j : Fin 12800000) (hj : j.val = e.val) :
    wrapped S D (ix1 j) = Cert.Force.wrapIdx (S (ix1 e)) := by
  rw [wrapped_apply, cat_left S D e j hj]

theorem wrapped_right (S D : IVec S6400000 32) (e : Fin 6400000) (j : Fin 12800000) (hj : j.val = 6400000 + e.val) :
    wrapped S D (ix1 j) = Cert.Force.wrapIdx (D (ix1 e)) := by
  rw [wrapped_apply, cat_right S D e j hj]

/-- The start word of position j, in the one column, is the wrapped word at j. -/
theorem start_apply (S D : IVec S6400000 32) (j : Fin 12800000) :
    startWords S D (ix2 j (⟨0, Nat.one_pos⟩ : Fin 1)) = wrapped S D (ix1 j) := by
  unfold startWords
  exact broadcastInDim_apply _ _ _ _ (ix1 j) (fun a => by
    match a with
    | ⟨0, _⟩ =>
      have hne : ¬ S12800000.size (⟨0, Nat.one_pos⟩ : Fin 1) = 1 := by decide
      rw [if_neg hne]; rfl)

/-- A left fold by "and" from 1 over entries that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    have ha : f a = 1#1 := h a (List.mem_cons.2 (Or.inl rfl))
    have h11 : IntOp.andi (1#1 : BitVec 1) 1#1 = 1#1 := by decide
    rw [List.foldl_cons, ha, h11]
    exact ih (fun n hn => h n (List.mem_cons.2 (Or.inr hn)))

/-- Under the range hypotheses, the wrapped word at any position passes the bounds test 0 ≤ w ≤ 99999: it is a source
    or a destination word, unchanged by the wrap. -/
theorem wrapped_inside (S D : IVec S6400000 32) (hS : Cert.Force.InRange S) (hD : Cert.Force.InRange D) (j : Fin 12800000) :
    IntOp.andi (IntOp.cmpi .sge (wrapped S D (ix1 j)) 0#32) (IntOp.cmpi .sle (wrapped S D (ix1 j)) 99999#32) = 1#1 := by
  by_cases hlt : j.val < 6400000
  · obtain ⟨h0, h1⟩ := hS ⟨j.val, hlt⟩
    rw [wrapped_left S D ⟨j.val, hlt⟩ j rfl, Cert.Domain.wrapIdx_of_nonneg _ h0]
    exact Cert.Domain.inside_of_range _ h0 h1
  · have hj := j.isLt
    have hlt' : j.val - 6400000 < 6400000 := by omega
    obtain ⟨h0, h1⟩ := hD ⟨j.val - 6400000, hlt'⟩
    rw [wrapped_right S D ⟨j.val - 6400000, hlt'⟩ j (by show j.val = 6400000 + (j.val - 6400000); omega),
      Cert.Domain.wrapIdx_of_nonneg _ h0]
    exact Cert.Domain.inside_of_range _ h0 h1

/-- Under the range hypotheses the bounds test is 1 at every position: every entry the "and" runs over is 1. -/
theorem inside_one (S D : IVec S6400000 32) (hS : Cert.Force.InRange S) (hD : Cert.Force.InRange D) (j : Fin 12800000) :
    inside S D (ix1 j) = 1#1 := by
  unfold inside
  rw [Host.reduce_eq_foldl]
  refine foldl_andi_ones _ _ (fun i _ => ?_)
  have h1 : (i 1).val < 1 := (i 1).isLt
  obtain ⟨j0, hi⟩ : ∃ j0 : Fin 12800000, i = ix2 j0 (⟨0, Nat.one_pos⟩ : Fin 1) := ⟨i 0, by
    funext a
    match a with
    | ⟨0, _⟩ => rfl
    | ⟨1, _⟩ => exact Fin.ext (by show (i 1).val = 0; omega)⟩
  subst hi
  show IntOp.andi (IntOp.cmpi .sge (startWords S D (ix2 j0 (⟨0, Nat.one_pos⟩ : Fin 1))) 0#32)
    (IntOp.cmpi .sle (startWords S D (ix2 j0 (⟨0, Nat.one_pos⟩ : Fin 1))) 99999#32) = 1#1
  rw [start_apply]
  exact wrapped_inside S D hS hD j0

end Cert.KernelIdeal.HostWords

end
-- ==== Proof.LibColGather.lean ====
/-
  A column lookup on the host, read at an index. What table[:, cols] of a matrix table : [C, N] at an integer array
  cols : [E] lowers to: a gather with offset axis 0, collapsed slice axis 1, start index map [1], slices of one whole
  column, over the columns laid out as [E, 1]. Result element (k, e) is the table at row k and at column cols[e, 0],
  read as a signed integer and kept inside [0, N − 1] as the host's gather keeps every start index.
-/
import Idealize.ShloMosaic.Lib.ValueIdx

noncomputable section

namespace Cert.Lib.ColGather

open Idealize.ShloMosaic Idealize.ShloMosaic.ValueIdx

variable {α : Type}

/-- Those dimension numbers for a table [C, N], columns [E, 1] and result [C, E]; their conditions are decided on a
    program's literal shapes. -/
abbrev colDims (C N E : Nat) (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

section Coordinates

variable {C N E w : Nat} (wf : GatherDims.WF ⟨2, ![C, N]⟩ ⟨2, ![E, 1]⟩ ⟨2, ![C, E]⟩ [0] [1] [] [1] [] 1 ![C, 1])
  (idx : IVec ⟨2, ![E, 1]⟩ w) (k : Fin C) (e : Fin E)

/-- On the table's column axis the operand index is the start index: the word at (e, 0), signed, kept inside the
    table. -/
theorem coord_col :
    (colDims C N E wf).start (ix2 k e) idx (1 : Fin 2) + (colDims C N E wf).batchCoord (ix2 k e) (1 : Fin 2)
      + (colDims C N E wf).offCoord (ix2 k e) (1 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims C N E wf).startIndexMap from List.mem_singleton.mpr rfl)]
  have hsi : (colDims C N E wf).siIdx (ix2 k e) ⟨List.idxOf (1 : Fin 2) (colDims C N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's row axis the operand index is the result's row. -/
theorem coord_row :
    (colDims C N E wf).start (ix2 k e) idx (0 : Fin 2) + (colDims C N E wf).batchCoord (ix2 k e) (0 : Fin 2)
      + (colDims C N E wf).offCoord (ix2 k e) (0 : Fin 2) = k.val := by
  rw [GatherDims.batchCoord_eq_zero _ _ _ List.not_mem_nil]
  have hs : (colDims C N E wf).start (ix2 k e) idx (0 : Fin 2) = 0 := by
    unfold GatherDims.start
    rw [dif_neg (fun h => absurd (congrArg Fin.val (List.mem_singleton.mp h)) Nat.zero_ne_one)]
  rw [hs]
  simp only [Nat.add_zero, Nat.zero_add]
  rfl

end Coordinates

/-- The lookup read at (k, e): row k, column cols[e, 0] (signed, kept inside the table). -/
theorem colGather_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (k : Fin C) (e : Fin E) :
    Host.gather (colDims C N E wf) x idx (ix2 k e)
      = x (ix2 k ⟨min (idx (ix2 e ⟨0, Nat.one_pos⟩)).toInt.toNat (N - 1), by omega⟩) := by
  unfold Host.gather
  congr 1
  funext a
  refine Fin.ext ?_
  match a with
  | ⟨0, _⟩ => exact coord_row wf idx k e
  | ⟨1, _⟩ => exact coord_col wf idx k e

end Cert.Lib.ColGather

end
-- ==== Proof.HostTake.lean ====
/-
  The kernel's two input arrays, read at an index.

  The host looks the 12,800,000 wrapped edge words up in the transposed position table and fills where a word is
  outside the table. Where every word is inside, element (k, j) of the looked-up array is the table at the row word j
  names (read signed, kept inside the table) and at column k. The source array is the first 6,400,000 columns and the
  destination array the last 6,400,000, each re-laid as [2, 50000, 128] with the row-major position kept: element
  (k, b, l) is column 128·b + l of its half.
-/
import proofs.«409501_j9517647528245_3_alg».proof.Proof.HostDefs
import proofs.«409501_j9517647528245_3_alg».proof.Proof.LibColGather
import proofs.«409501_j9517647528245_3_alg».proof.Proof.Force
import Idealize.ShloMosaic.Lib.Pipeline.Value
import Idealize.ShloMosaic.Lib.ValueIdx

noncomputable section

namespace Cert.KernelIdeal.HostTake

open Cert.KernelIdeal Cert.KernelIdeal.HostSide Idealize.ShloMosaic Idealize.ShloMosaic.ValueIdx
open Facts₀

variable {F : FTy → Type} [FloatOps F]

/-- The program's gather record is the column lookup's. -/
theorem rec_eq : gather_S2x100000_S12800000x1_S2x12800000_0_1_n_n_1_1_21
    = Cert.Lib.ColGather.colDims 2 100000 12800000 Facts₀.gather_S2x100000_S12800000x1_S2x12800000_0_1_n_n_1_1_21_wf := rfl

/-- The transposed table at (k, r) is the table at (r, k). -/
theorem transposed_apply (X : FVec F S100000x2 .f32) (k : Fin 2) (r : Fin 100000) :
    transpose S2x100000 [1, 0] X transposes_S100000x2_S2x100000_1_0 (ix2 k r) = X (ix2 r k) :=
  transpose_apply [1, 0] X transposes_S100000x2_S2x100000_1_0 (ix2 k r) (ix2 r k)
    (fun b => match b with | ⟨0, _⟩ => rfl | ⟨1, _⟩ => rfl)

/-- Where every wrapped word is inside the table, the looked-up array at (k, j) is the table at the row the j-th
    wrapped word names and at column k: the fill is never chosen, the lookup reads the transposed table at column
    "start word j", and the transposed table at (k, r) is the table at (r, k). -/
theorem taken_apply (X : FVec F S100000x2 .f32) (S D : IVec S6400000 32)
    (hin : ∀ j : Fin 12800000, inside S D (ix1 j) = 1#1)
    (hst : ∀ j : Fin 12800000, startWords S D (ix2 j (⟨0, Nat.one_pos⟩ : Fin 1)) = wrapped S D (ix1 j))
    (k : Fin 2) (j : Fin 12800000) :
    taken X S D (ix2 k j) = X (ix2 (Cert.Force.rowOf (wrapped S D (ix1 j))) k) := by
  unfold taken
  rw [select_apply,
    broadcastInDim_apply _ bcast_S12800000_S2x12800000_1 (inside S D) (ix2 k j) (ix1 j) (fun a => match a with
      | ⟨0, _⟩ => by show j.val = if (12800000 : Nat) = 1 then 0 else j.val; rw [if_neg (by decide)]),
    hin j, select_one, rec_eq, Cert.Lib.ColGather.colGather_apply (by omega)]
  rw [transposed_apply]
  refine congrArg X (congrArg (fun r => ix2 r k) (Fin.ext ?_))
  show min (startWords S D (ix2 j (⟨0, Nat.one_pos⟩ : Fin 1))).toInt.toNat (100000 - 1)
    = min (wrapped S D (ix1 j)).toInt.toNat (100000 - 1)
  rw [hst j]

/-- The source array at (k, b, l) is the looked-up array at (k, 128·b + l): the re-laying keeps the row-major position
    and the first half starts at column 0. -/
theorem srcArr_apply (X : FVec F S100000x2 .f32) (S D : IVec S6400000 32)
    (htk : ∀ (k : Fin 2) (j : Fin 12800000), taken X S D (ix2 k j) = X (ix2 (Cert.Force.rowOf (wrapped S D (ix1 j))) k))
    (k : Fin 2) (b : Fin 50000) (l : Fin 128) (j : Fin 12800000) (hj : j.val = b.val * 128 + l.val) :
    srcArr X S D (ix3 k b l) = X (ix2 (Cert.Force.rowOf (wrapped S D (ix1 j))) k) := by
  unfold srcArr
  have hlt : b.val * 128 + l.val < 6400000 := by have := b.isLt; have := l.isLt; omega
  rw [shapeCast_apply _ shapeCasts_S2x6400000_S2x50000x128 (ix3 k b l) (ix2 k ⟨b.val * 128 + l.val, hlt⟩) (by
      rw [Shape.rowMajor_val_two, Shape.rowMajor_val_three]
      show k.val * 6400000 + (b.val * 128 + l.val) = (k.val * 50000 + b.val) * 128 + l.val
      omega),
    extractStridedSlice_apply ![0, 0] (taken X S D) slices_S2x12800000_S2x6400000_0_0 _ (ix2 k j) (fun a => match a with
      | ⟨0, _⟩ => by show k.val = 0 + k.val; omega
      | ⟨1, _⟩ => by show j.val = 0 + (b.val * 128 + l.val); omega)]
  exact htk k j

/-- The destination array at (k, b, l) is the looked-up array at (k, 6400000 + 128·b + l): the second half starts at
    column 6400000. -/
theorem dstArr_apply (X : FVec F S100000x2 .f32) (S D : IVec S6400000 32)
    (htk : ∀ (k : Fin 2) (j : Fin 12800000), taken X S D (ix2 k j) = X (ix2 (Cert.Force.rowOf (wrapped S D (ix1 j))) k))
    (k : Fin 2) (b : Fin 50000) (l : Fin 128) (j : Fin 12800000) (hj : j.val = 6400000 + b.val * 128 + l.val) :
    dstArr X S D (ix3 k b l) = X (ix2 (Cert.Force.rowOf (wrapped S D (ix1 j))) k) := by
  unfold dstArr
  have hlt : b.val * 128 + l.val < 6400000 := by have := b.isLt; have := l.isLt; omega
  rw [shapeCast_apply _ shapeCasts_S2x6400000_S2x50000x128 (ix3 k b l) (ix2 k ⟨b.val * 128 + l.val, hlt⟩) (by
      rw [Shape.rowMajor_val_two, Shape.rowMajor_val_three]
      show k.val * 6400000 + (b.val * 128 + l.val) = (k.val * 50000 + b.val) * 128 + l.val
      omega),
    extractStridedSlice_apply ![0, 6400000] (taken X S D) slices_S2x12800000_S2x6400000_0_6400000 _ (ix2 k j) (fun a => match a with
      | ⟨0, _⟩ => by show k.val = 0 + k.val; omega
      | ⟨1, _⟩ => by show j.val = 6400000 + (b.val * 128 + l.val); omega)]
  exact htk k j

end Cert.KernelIdeal.HostTake

end
-- ==== Proof.KernelUpdates.lean ====
/-
  The kernel program's update array is the specification's.

  The kernel's output array, re-laid as [6400000, 2], has at (e, k) the output array's element (k, e / 128, e % 128):
  the transpose swaps the two coordinates and the re-laying keeps the row-major position. That element is the message
  component k of the differences of the destination and source arrays at (·, e / 128, e % 128), which are the position
  table's rows named by the wrapped words at positions 6400000 + e and e of the concatenated edge words: the wraps of
  the destination and source words of edge e. This is the specification's update array at (e, k).
-/
import proofs.«409501_j9517647528245_3_alg».proof.Proof.KernelArray
import proofs.«409501_j9517647528245_3_alg».proof.Proof.HostDefs
import proofs.«409501_j9517647528245_3_alg».proof.Proof.HostWords
import proofs.«409501_j9517647528245_3_alg».proof.Proof.HostTake
import proofs.«409501_j9517647528245_3_alg».proof.Proof.Force
import Idealize.ShloMosaic.Lib.Pipeline.Value
import Idealize.ShloMosaic.Lib.ValueIdx

noncomputable section

namespace Cert.KernelIdeal.Updates

open Cert.KernelIdeal Cert.KernelIdeal.HostSide Idealize.ShloMosaic Idealize.ShloMosaic.ValueIdx

variable {F : FTy → Type} [FloatOps F]

/-- The update arrays agree, given how the kernel's two input arrays read at an index: element (k, b, l) of the source
    (destination) array is the table at the row the wrapped word at position 128·b + l (6400000 + 128·b + l) names,
    column k. -/
theorem kernel_updates_of (X : FVec F S100000x2 .f32) (S D : IVec S6400000 32)
    (hsrc : ∀ (k : Fin 2) (b : Fin 50000) (l : Fin 128) (j : Fin 12800000), j.val = b.val * 128 + l.val →
      srcArr X S D (ix3 k b l) = X (ix2 (Cert.Force.rowOf (wrapped S D (ix1 j))) k))
    (hdst : ∀ (k : Fin 2) (b : Fin 50000) (l : Fin 128) (j : Fin 12800000), j.val = 6400000 + b.val * 128 + l.val →
      dstArr X S D (ix3 k b l) = X (ix2 (Cert.Force.rowOf (wrapped S D (ix1 j))) k)) :
    transpose S6400000x2 [1, 0]
        (shapeCast S2x6400000 (Cert.KernelIdeal.Blocks.wholeOut (srcArr X S D) (dstArr X S D))
          Facts₀.shapeCasts_S2x50000x128_S2x6400000)
        Facts₀.transposes_S2x6400000_S6400000x2_1_0
      = Cert.Force.updates X S D := by
  funext i
  obtain ⟨e, k, rfl⟩ : ∃ (e : Fin 6400000) (k : Fin 2), i = ix2 e k := ⟨i 0, i 1, eq_ix2 i⟩
  have he := e.isLt
  have hb : e.val / 128 < 50000 := by omega
  have hl : e.val % 128 < 128 := Nat.mod_lt _ (by decide)
  have hjS : e.val < 12800000 := by omega
  have hjD : 6400000 + e.val < 12800000 := by omega
  -- the transpose, then the re-laying: (e, k) reads the output array at (k, e / 128, e % 128)
  rw [transpose_apply [1, 0] _ Facts₀.transposes_S2x6400000_S6400000x2_1_0 (ix2 e k) (ix2 k e)
      (fun b => match b with | ⟨0, _⟩ => rfl | ⟨1, _⟩ => rfl),
    shapeCast_apply _ Facts₀.shapeCasts_S2x50000x128_S2x6400000 (ix2 k e)
      (ix3 k (⟨e.val / 128, hb⟩ : Fin 50000) (⟨e.val % 128, hl⟩ : Fin 128)) (by
        rw [Shape.rowMajor_val_three, Shape.rowMajor_val_two]
        show (k.val * 50000 + e.val / 128) * 128 + e.val % 128 = k.val * 6400000 + e.val
        omega)]
  -- the output array there: the message of the three differences
  show Cert.Force.pairMsg
      (FloatOps.subf (dstArr X S D (ix3 (0 : Fin 2) (⟨e.val / 128, hb⟩ : Fin 50000) (⟨e.val % 128, hl⟩ : Fin 128)))
        (srcArr X S D (ix3 (0 : Fin 2) (⟨e.val / 128, hb⟩ : Fin 50000) (⟨e.val % 128, hl⟩ : Fin 128))))
      (FloatOps.subf (dstArr X S D (ix3 (1 : Fin 2) (⟨e.val / 128, hb⟩ : Fin 50000) (⟨e.val % 128, hl⟩ : Fin 128)))
        (srcArr X S D (ix3 (1 : Fin 2) (⟨e.val / 128, hb⟩ : Fin 50000) (⟨e.val % 128, hl⟩ : Fin 128))))
      (FloatOps.subf (dstArr X S D (ix3 k (⟨e.val / 128, hb⟩ : Fin 50000) (⟨e.val % 128, hl⟩ : Fin 128)))
        (srcArr X S D (ix3 k (⟨e.val / 128, hb⟩ : Fin 50000) (⟨e.val % 128, hl⟩ : Fin 128))))
    = Cert.Force.updates X S D (ix2 e k)
  have hs : ∀ k' : Fin 2, srcArr X S D (ix3 k' (⟨e.val / 128, hb⟩ : Fin 50000) (⟨e.val % 128, hl⟩ : Fin 128))
      = X (ix2 (Cert.Force.rowOf (Cert.Force.wrapIdx (S (ix1 e)))) k') := fun k' => by
    rw [hsrc k' _ _ (⟨e.val, hjS⟩ : Fin 12800000) (by show e.val = e.val / 128 * 128 + e.val % 128; omega),
      Cert.KernelIdeal.HostWords.wrapped_left S D e ⟨e.val, hjS⟩ rfl]
  have hd : ∀ k' : Fin 2, dstArr X S D (ix3 k' (⟨e.val / 128, hb⟩ : Fin 50000) (⟨e.val % 128, hl⟩ : Fin 128))
      = X (ix2 (Cert.Force.rowOf (Cert.Force.wrapIdx (D (ix1 e)))) k') := fun k' => by
    rw [hdst k' _ _ (⟨6400000 + e.val, hjD⟩ : Fin 12800000)
        (by show 6400000 + e.val = 6400000 + e.val / 128 * 128 + e.val % 128; omega),
      Cert.KernelIdeal.HostWords.wrapped_right S D e ⟨6400000 + e.val, hjD⟩ rfl]
  rw [hs 0, hs 1, hs k, hd 0, hd 1, hd k]
  rfl

/-- With both edge-index arrays in range the kernel program's update array is the specification's: every wrapped word
    is inside the table, so the lookup never fills, and the two input arrays read as above. -/
theorem kernel_updates (X : FVec F Cert.KernelIdeal.S100000x2 .f32) (S D : IVec Cert.KernelIdeal.S6400000 32)
    (hS : Cert.Force.InRange S) (hD : Cert.Force.InRange D) :
    transpose Cert.KernelIdeal.S6400000x2 [1, 0]
        (shapeCast Cert.KernelIdeal.S2x6400000
          (Cert.KernelIdeal.Blocks.wholeOut (Cert.KernelIdeal.HostSide.srcArr X S D) (Cert.KernelIdeal.HostSide.dstArr X S D))
          Facts₀.shapeCasts_S2x50000x128_S2x6400000)
        Facts₀.transposes_S2x6400000_S6400000x2_1_0
      = Cert.Force.updates X S D := by
  have htk : ∀ (k : Fin 2) (j : Fin 12800000),
      taken X S D (ix2 k j) = X (ix2 (Cert.Force.rowOf (wrapped S D (ix1 j))) k) :=
    Cert.KernelIdeal.HostTake.taken_apply X S D (Cert.KernelIdeal.HostWords.inside_one S D hS hD)
      (Cert.KernelIdeal.HostWords.start_apply S D)
  exact kernel_updates_of X S D
    (fun k b l j hj => Cert.KernelIdeal.HostTake.srcArr_apply X S D htk k b l j hj)
    (fun k b l j hj => Cert.KernelIdeal.HostTake.dstArr_apply X S D htk k b l j hj)

end Cert.KernelIdeal.Updates

end
-- ==== Proof.KernelRun.lean ====
/-
  The kernel program's run, read: its result buffer ends at the scatter-add of the specification's update array.

  The frame run leaves the kernel's output array at the whole-array message function of the arrays the region found;
  those are the looked-up source and destination arrays; re-laid as [6400000, 2] the output is the specification's
  update array when every edge word names a node; the host operations after the region scatter-add it by destination
  node onto zeros and subtract 0.1 times the velocities.
-/
import proofs.«409501_j9517647528245_3_alg».proof.Proof.KernelHost
import proofs.«409501_j9517647528245_3_alg».proof.Proof.KernelArray
import proofs.«409501_j9517647528245_3_alg».proof.Proof.KernelUpdates

set_option maxRecDepth 16384

noncomputable section

open Idealize.ShloMosaic Idealize.ShloMosaic.TcCoe Idealize.SL.Sem

namespace Cert.KernelIdeal.Run

open Cert.KernelIdeal Cert.KernelIdeal.Gen Cert.KernelIdeal.HostSide Cert.KernelIdeal.HostRun

variable {F : FTy → Type} [FloatOps F]

/-- The program's result from the update array U: U scatter-added by destination node onto zeros, less 0.1 times
    the velocities. -/
def resultOfUpd (U : FVec F S6400000x2 .f32) (V : FVec F S100000x2 .f32) (D : IVec S6400000 32) : FVec F S100000x2 .f32 :=
  subf
    (Host.scatterAdd scatter_S100000x2_S6400000x1_S6400000x2_1_0_0_1
      (broadcastInDim S100000x2 ![] Facts₀.bcast_S_S100000x2 (constant S_ .f32 0x00000000#32))
      (broadcastInDim S6400000x1 ![0] Facts₀.bcast_S6400000_S6400000x1_0 D) U)
    (mulf (broadcastInDim S100000x2 ![] Facts₀.bcast_S_S100000x2 (constant S_ .f32 0x3DCCCCCD#32)) V)

/-- The result from the kernel's output array is the result from that array re-laid as [6400000, 2]. -/
theorem resultOf_eq (O : FVec F S2x50000x128 .f32) (V : FVec F S100000x2 .f32) (D : IVec S6400000 32) :
    resultOf O V D
      = resultOfUpd (transpose S6400000x2 [1, 0] (shapeCast S2x6400000 O Facts₀.shapeCasts_S2x50000x128_S2x6400000)
          Facts₀.transposes_S2x6400000_S6400000x2_1_0) V D := rfl

variable (m : (ℓ : Loc nD τ sig) → Buf (Elt F) ℓ) (ρ : Dev nD → PrngReg)

/-- The result buffer after the run, when every edge word names a node. -/
theorem result_eq (c : Dev nD) (hS : Cert.Force.InRange (m ((c : Thread nD τ).loc main_arg2)))
    (hD : Cert.Force.InRange (m ((c : Thread nD τ).loc main_arg3))) :
    Pipeline.afterTail₀ cfgs (dats m) 0 (V0 m) [hostOps1] c main_v15
      = resultOfUpd (Cert.Force.updates (m ((c : Thread nD τ).loc main_arg0)) (m ((c : Thread nD τ).loc main_arg2))
          (m ((c : Thread nD τ).loc main_arg3))) (m ((c : Thread nD τ).loc main_arg1)) (m ((c : Thread nD τ).loc main_arg3)) := by
  rw [tail_eq m c, Cert.KernelIdeal.Blocks.final m c, V_src m c, V_dst m c, resultOf_eq,
    Cert.KernelIdeal.Updates.kernel_updates _ _ _ hS hD]

/-- Every weakly fair execution of the kernel program terminates with the result buffer at the scatter-add of the
    specification's update array, the arguments unchanged. -/
theorem run (hS : ∀ c : Dev nD, Cert.Force.InRange (m ((c : Thread nD τ).loc main_arg2)))
    (hD : ∀ c : Dev nD, Cert.Force.InRange (m ((c : Thread nD τ).loc main_arg3))) :
    θ_run defs (onTc (τ := τ) (main (F := F))) ⟨m, fun _ => 0, ρ⟩ (fun r => ∀ c : Dev nD,
      r.2.mem ((c.tc : Thread nD τ).loc main_v15)
          = resultOfUpd (Cert.Force.updates (m ((c : Thread nD τ).loc main_arg0)) (m ((c : Thread nD τ).loc main_arg2))
              (m ((c : Thread nD τ).loc main_arg3))) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v15 (Pipeline.mem_restRefs_of main_v15 (by decide) (by decide))).trans (result_eq m c (hS c) (hD c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.Reference.lean ====
/-
  The reference program's update array is the specification's update array, index by index.

  The reference looks up the rows x[dst] and x[src] of the position table with a gather whose start words are the
  edge words with the table height added where they are negative; the gather reads a start word signed and keeps it
  inside the table. So the gathered difference at (e, k) is the specification's difference vector. From there the
  reference computes, at the edge's one column, the length n = √(δ₀² + δ₁²) as an initial 0 plus a sum over the two
  columns, the distance r kept at least 0.1, u = 1 / r, u⁶ = u²·(u²·u²) twice over, and the force magnitude
  4·u⁶·(12·u⁶ − 6) / r; it broadcasts n and the force back over the two columns and multiplies the force by the unit
  vector δₖ / max(n, 1e-12). The specification multiplies in the other order; the extended reals' product commutes.
-/
import proofs.«409501_j9517647528245_3_alg».proof.Proof.Gen.ReferenceIdeal.Read
import proofs.«409501_j9517647528245_3_alg».proof.Proof.LibRowGather
import proofs.«409501_j9517647528245_3_alg».proof.Proof.Force
import Idealize.ShloMosaic.Lib.ValueIdx
import Idealize.ShloMosaic.Lib.Pipeline.Value
import Idealize.ShloMosaic.PureOps.Ideal.Laws

noncomputable section

open scoped BigOperators

namespace Cert.RefUpdates

open Idealize.ShloMosaic Idealize.ShloMosaic.ValueIdx Cert.ReferenceIdeal Cert.ReferenceIdeal.Read Cert.Force

/-- The position table's contents at the ideal instance. -/
abbrev XT := (⟨S100000x2, .f32⟩ : BufTy).Contents (Elt Ideal)
/-- An edge-word array's contents at the ideal instance. -/
abbrev ET := (⟨S6400000, .i32⟩ : BufTy).Contents (Elt Ideal)

/-- The one column of an array of shape [E, 1]. -/
abbrev z1 : Fin 1 := ⟨0, Nat.one_pos⟩

/-! ## Index functions at coordinates -/

theorem idx5 (e : Fin 6400000) : idx_main_v5 (ix2 e z1) = ix1 e := by
  funext a; match a with | ⟨0, _⟩ => rfl
theorem idx12 (e : Fin 6400000) : idx_main_v12 (ix2 e z1) = ix1 e := by
  funext a; match a with | ⟨0, _⟩ => rfl
theorem idxc2 (e : Fin 6400000) : idx_main_call0_v2 (ix2 e z1) = ix1 e := by
  funext a; match a with | ⟨0, _⟩ => rfl
theorem idxc1 (e : Fin 6400000) (k : Fin 2) : idx_main_call0_v1 (ix1 e) k = ix2 e k := by
  funext a; match a with | ⟨0, _⟩ => rfl | ⟨1, _⟩ => rfl
theorem idx18 (e : Fin 6400000) (k : Fin 2) : idx_main_v18 (ix2 e k) = ix2 e z1 := by
  funext a; match a with | ⟨0, _⟩ => rfl | ⟨1, _⟩ => rfl
theorem idx39 (e : Fin 6400000) (k : Fin 2) : idx_main_v39 (ix2 e k) = ix2 e z1 := by
  funext a; match a with | ⟨0, _⟩ => rfl | ⟨1, _⟩ => rfl

/-! ## The two row lookups -/

/-- The destination's start word at edge e is the edge word with negative words wrapped. -/
theorem start_D (D : ET) (e : Fin 6400000) :
    val_main_v5 (F := Ideal) D (ix2 e z1) = wrapIdx (D (ix1 e)) := by
  rw [val_main_v5_apply, idx5, val_main_v4_apply, val_main_v1_apply, val_main_v3_apply, val_main_v0_apply,
    val_main_v2_apply, val_main_c_apply, val_main_c_0_apply]
  rfl

/-- The source's start word at edge e is the edge word with negative words wrapped. -/
theorem start_S (S : ET) (e : Fin 6400000) :
    val_main_v12 (F := Ideal) S (ix2 e z1) = wrapIdx (S (ix1 e)) := by
  rw [val_main_v12_apply, idx12, val_main_v11_apply, val_main_v8_apply, val_main_v10_apply, val_main_v7_apply,
    val_main_v9_apply, val_main_c_1_apply, val_main_c_2_apply]
  rfl

/-- The program's gather record is the row lookup's. -/
theorem rec_eq : gather_S100000x2_S6400000x1_S6400000x2_1_0_n_n_0_1_12
    = Cert.Lib.RowGather.rowDims 100000 2 6400000 Facts₀.gather_S100000x2_S6400000x1_S6400000x2_1_0_n_n_0_1_12_wf := rfl

/-- The gathered destination row at (e, k). -/
theorem gather_D (X : XT) (D : ET) (e : Fin 6400000) (k : Fin 2) :
    val_main_v6 (F := Ideal) X D (ix2 e k) = X (ix2 (rowOf (wrapIdx (D (ix1 e)))) k) := by
  unfold val_main_v6
  rw [rec_eq, Cert.Lib.RowGather.rowGather_apply (by omega)]
  refine congrArg X (congrArg (fun r => ix2 r k) (Fin.ext ?_))
  show min (val_main_v5 (F := Ideal) D (ix2 e z1)).toInt.toNat (100000 - 1) = min (wrapIdx (D (ix1 e))).toInt.toNat (100000 - 1)
  rw [start_D]

/-- The gathered source row at (e, k). -/
theorem gather_S (X : XT) (S : ET) (e : Fin 6400000) (k : Fin 2) :
    val_main_v13 (F := Ideal) X S (ix2 e k) = X (ix2 (rowOf (wrapIdx (S (ix1 e)))) k) := by
  unfold val_main_v13
  rw [rec_eq, Cert.Lib.RowGather.rowGather_apply (by omega)]
  refine congrArg X (congrArg (fun r => ix2 r k) (Fin.ext ?_))
  show min (val_main_v12 (F := Ideal) S (ix2 e z1)).toInt.toNat (100000 - 1) = min (wrapIdx (S (ix1 e))).toInt.toNat (100000 - 1)
  rw [start_S]

/-- The difference stage is the specification's difference vector. -/
theorem v14_eq (X : XT) (S D : ET) (e : Fin 6400000) (k : Fin 2) :
    val_main_v14 (F := Ideal) X S D (ix2 e k) = diff (F := Ideal) X S D e k := by
  rw [val_main_v14_apply, gather_D, gather_S]
  rfl

/-! ## The length, the clamped distance, the force and the unit vector -/

/-- The length of the difference vector of edge e. -/
def len (X : XT) (S D : ET) (e : Fin 6400000) : Ideal .f32 :=
  FloatOps.sqrt (FloatOps.addf (FloatOps.mulf (diff (F := Ideal) X S D e 0) (diff (F := Ideal) X S D e 0))
    (FloatOps.mulf (diff (F := Ideal) X S D e 1) (diff (F := Ideal) X S D e 1)))

/-- The norm stage: 0 plus the sum of the two squares, under the root. -/
theorem v15_eq (X : XT) (S D : ET) (e : Fin 6400000) :
    val_main_v15 (F := Ideal) X S D (ix2 e z1) = len X S D e := by
  rw [val_main_v15_apply, val_main_call0_v2_apply, idxc2, val_main_call0_v1_apply, Fin.sum_univ_two,
    val_main_call0_cst_apply, idxc1, idxc1, val_main_call0_v0_apply, val_main_call0_v0_apply, v14_eq, v14_eq]
  show Ideal.sqrt (Ideal.ofBits .f32 0x00000000#32 + (_ + _)) = _
  rw [Ideal.ofBits_zero_f32, zero_add]
  rfl

/-- The distance kept at least 0.1. -/
theorem v22_eq (X : XT) (S D : ET) (e : Fin 6400000) :
    val_main_v22 (F := Ideal) X S D (ix2 e z1) = pairMsg.clampDist (len X S D e) := by
  rw [val_main_v22_apply, val_main_v21_apply, v15_eq, val_main_v20_apply, val_main_cst_3_apply,
    val_main_call1_v1_apply, val_main_call1_v0_apply, val_main_cst_4_apply]
  rfl

/-- The reciprocal of the clamped distance. -/
theorem v24_eq (X : XT) (S D : ET) (e : Fin 6400000) :
    val_main_v24 (F := Ideal) X S D (ix2 e z1)
      = FloatOps.divf (FloatOps.ofBits .f32 0x3F800000#32) (pairMsg.clampDist (len X S D e)) := by
  rw [val_main_v24_apply, v22_eq, val_main_v23_apply, val_main_cst_5_apply]
  rfl

/-- The sixth power, first copy. -/
theorem v27_eq (X : XT) (S D : ET) (e : Fin 6400000) :
    val_main_v27 (F := Ideal) X S D (ix2 e z1) = pairMsg.sixth (pairMsg.clampDist (len X S D e)) := by
  rw [val_main_v27_apply, val_main_v26_apply, val_main_v25_apply, v24_eq]
  rfl

/-- The sixth power, second copy. -/
theorem v32_eq (X : XT) (S D : ET) (e : Fin 6400000) :
    val_main_v32 (F := Ideal) X S D (ix2 e z1) = pairMsg.sixth (pairMsg.clampDist (len X S D e)) := by
  rw [val_main_v32_apply, val_main_v31_apply, val_main_v30_apply, v24_eq]
  rfl

/-- The force magnitude. -/
theorem v38_eq (X : XT) (S D : ET) (e : Fin 6400000) :
    val_main_v38 (F := Ideal) X S D (ix2 e z1) = pairMsg.forceOf (len X S D e) := by
  rw [val_main_v38_apply, val_main_v37_apply, val_main_v29_apply, val_main_v36_apply, val_main_v34_apply,
    v22_eq, v27_eq, v32_eq, val_main_v28_apply, val_main_cst_6_apply, val_main_v33_apply, val_main_cst_7_apply,
    val_main_v35_apply, val_main_cst_8_apply]
  rfl

/-- The unit vector's component k. -/
theorem v19_eq (X : XT) (S D : ET) (e : Fin 6400000) (k : Fin 2) :
    val_main_v19 (F := Ideal) X S D (ix2 e k)
      = FloatOps.divf (diff (F := Ideal) X S D e k)
          (FloatOps.maximumf (len X S D e) (FloatOps.ofBits .f32 0x2B8CBCCC#32)) := by
  rw [val_main_v19_apply, v14_eq, val_main_v18_apply, idx18, val_main_v17_apply, v15_eq, val_main_v16_apply,
    val_main_cst_apply]
  rfl

/-! ## The update array -/

theorem ref_updates (X : (⟨Cert.ReferenceIdeal.S100000x2, .f32⟩ : BufTy).Contents (Elt Ideal))
    (S D : (⟨Cert.ReferenceIdeal.S6400000, .i32⟩ : BufTy).Contents (Elt Ideal)) :
    Cert.ReferenceIdeal.Read.val_main_v40 (F := Ideal) X S D = Cert.Force.updates (F := Ideal) X S D := by
  funext i
  obtain ⟨e, k, rfl⟩ : ∃ (e : Fin 6400000) (k : Fin 2), i = ix2 e k := ⟨i 0, i 1, eq_ix2 i⟩
  rw [val_main_v40_apply, val_main_v39_apply, idx39, v38_eq, v19_eq]
  show FloatOps.mulf (pairMsg.forceOf (len X S D e)) _ = pairMsg (diff (F := Ideal) X S D e 0) (diff (F := Ideal) X S D e 1) (diff (F := Ideal) X S D e k)
  unfold pairMsg
  rw [Ideal.mulf_def, Ideal.mulf_def, mul_comm]
  rfl

end Cert.RefUpdates

end
-- ==== Proof.lean ====
/-
  The kernel computes, for each of 6,400,000 edges, the Lennard-Jones pairwise force message between the edge's two
  nodes, scatter-adds the messages by destination node and subtracts 0.1 times the velocities; the reference does the
  same with jnp operations. The kernel program looks the node positions up with a filling lookup of the transposed
  table (a word outside the table would read a not-a-number pattern), the reference with a clamping lookup, so the two
  agree where every edge word names a node, 0 ≤ word < 100000: the precondition states it for both edge arrays. Under
  it both programs hand the SAME update array to the same scatter-add:

  * the kernel side: the frame run leaves the kernel's output array at the message function of the two looked-up
    arrays, block by block over the 25 grid points; re-laid as [6400000, 2] it is the specification's update array
    (Force.lean);
  * the reference side: its update array, read one operation at a time, is the specification's update array, the
    length as 0 + (δ₀² + δ₁²) under the root and the last product in the other order.

  No finiteness is used: both sides apply the same operations of the extended reals to the same operands.
-/
import proofs.«409501_j9517647528245_3_alg».proof.Defs
import proofs.«409501_j9517647528245_3_alg».proof.Proof.Gen.Kernel
import proofs.«409501_j9517647528245_3_alg».proof.Proof.Gen.Kernel.Skeleton
import proofs.«409501_j9517647528245_3_alg».proof.Proof.Gen.Kernel.Launch
import proofs.«409501_j9517647528245_3_alg».proof.Proof.Gen.Kernel.Points
import proofs.«409501_j9517647528245_3_alg».proof.Proof.Gen.Kernel.Frame
import proofs.«409501_j9517647528245_3_alg».proof.Proof.Gen.KernelIdeal
import proofs.«409501_j9517647528245_3_alg».proof.Proof.Gen.KernelIdeal.Skeleton
import proofs.«409501_j9517647528245_3_alg».proof.Proof.Gen.KernelIdeal.Launch
import proofs.«409501_j9517647528245_3_alg».proof.Proof.Gen.KernelIdeal.Points
import proofs.«409501_j9517647528245_3_alg».proof.Proof.Gen.KernelIdeal.Frame
import proofs.«409501_j9517647528245_3_alg».proof.Proof.Gen.ReferenceIdeal
import proofs.«409501_j9517647528245_3_alg».proof.Proof.Gen.ReferenceIdeal.Run
import proofs.«409501_j9517647528245_3_alg».proof.Proof.Gen.ReferenceIdeal.Read
import proofs.«409501_j9517647528245_3_alg».proof.Proof.Gen.Pre_finite_inputs
import proofs.«409501_j9517647528245_3_alg».proof.Proof.KernelRun
import proofs.«409501_j9517647528245_3_alg».proof.Proof.Reference
import proofs.«409501_j9517647528245_3_alg».proof.Proof.Domain
import Idealize.ShloMosaic.Adequacy
import Idealize.ShloMosaic.Init

noncomputable section

namespace Cert.Proof

open Idealize.ShloMosaic Idealize.ShloMosaic.TcCoe Idealize.SL.Sem

-- the scatter-add is compared by its operands only; it stays folded
attribute [local irreducible] Host.scatterAdd

/-- The reference's result, one operation at a time, is the scatter-add of the specification's update array. -/
theorem ref_result (X V : (⟨Cert.ReferenceIdeal.S100000x2, .f32⟩ : BufTy).Contents (Elt Ideal))
    (S D : (⟨Cert.ReferenceIdeal.S6400000, .i32⟩ : BufTy).Contents (Elt Ideal)) :
    Cert.ReferenceIdeal.Read.val_main_v46 (F := Ideal) X V S D
      = Cert.KernelIdeal.Run.resultOfUpd (F := Ideal) (Cert.Force.updates (F := Ideal) X S D) V D := by
  unfold Cert.ReferenceIdeal.Read.val_main_v46 Cert.ReferenceIdeal.Read.val_main_v43
  rw [Cert.RefUpdates.ref_updates]
  generalize Cert.Force.updates (F := Ideal) X S D = U
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the scatter-add of the specification's update array less 0.1 times the velocities. -/
theorem algebraic : Cert.algebraic_KernelIdeal_ReferenceIdeal := by
  intro m ρ m' ρ' hpre hagree
  have hR : ∀ c : Dev Cert.KernelIdeal.nD,
      Cert.Force.InRange (m ((c : Thread Cert.KernelIdeal.nD Cert.KernelIdeal.τ).loc Cert.KernelIdeal.main_arg2))
      ∧ Cert.Force.InRange (m ((c : Thread Cert.KernelIdeal.nD Cert.KernelIdeal.τ).loc Cert.KernelIdeal.main_arg3)) :=
    fun c => Cert.Domain.inRange_of_pre _ _ _ _ (hpre c)
  refine ⟨_, Cert.KernelIdeal.Run.run (F := Ideal) m ρ (fun c => (hR c).1) (fun c => (hR c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2]
  exact ref_result _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
